-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x2048 : Shape := ⟨2, ![4096, 2048]⟩
abbrev S1x2048x1 : Shape := ⟨3, ![1, 2048, 1]⟩
abbrev S4096x32 : Shape := ⟨2, ![4096, 32]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1x2048x1 : S_.BroadcastsInDim S1x2048x1 (![] : Fin 0 → Fin S1x2048x1.rank)
  reducesTo_S1x2048x1_S_d0_1_2 : S1x2048x1.ReducesTo [0, 1, 2] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096x2048 32) (main_arg2 : FVec F S1x2048x1 .f32) (main_arg3 : FVec F S4096x32 .f32) (main_arg4 : IVec S4096x32 32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1x2048x1 .f32 := Host.absf main_arg2
  let main_cst_0 : FVec F S_ .f32 := constant S_ .f32 0x7F800000#32
  let main_v5 : FVec F S1x2048x1 .f32 := broadcastInDim S1x2048x1 ![] bcast_S_S1x2048x1 main_cst_0
  let main_v6 : IVec S1x2048x1 1 := cmpf .olt main_v4 main_v5
  let main_c_1 : IVec S_ 1 := constantI S_ 1 1#1
  let main_v7 : IVec S_ 1 := (fun x v => Host.reduce IntOp.andi x v reducesTo_S1x2048x1_S_d0_1_2 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x2048 : Shape := ⟨2, ![4096, 2048]⟩
abbrev S1x2048x1 : Shape := ⟨3, ![1, 2048, 1]⟩
abbrev S4096x32 : Shape := ⟨2, ![4096, 32]⟩
abbrev S4096 : Shape := ⟨1, ![4096]⟩
abbrev S8192x4096 : Shape := ⟨2, ![8192, 4096]⟩
abbrev S4x2048x1 : Shape := ⟨3, ![4, 2048, 1]⟩
abbrev S8192x1 : Shape := ⟨2, ![8192, 1]⟩
abbrev S2048x512 : Shape := ⟨2, ![2048, 512]⟩
abbrev S2048x1 : Shape := ⟨2, ![2048, 1]⟩
abbrev S2048x256 : Shape := ⟨2, ![2048, 256]⟩
abbrev S2048x32 : Shape := ⟨2, ![2048, 32]⟩
abbrev S2048 : Shape := ⟨1, ![2048]⟩
abbrev S2048x2048 : Shape := ⟨2, ![2048, 2048]⟩
abbrev S2048x4 : Shape := ⟨2, ![2048, 4]⟩
abbrev S2048x4x1 : Shape := ⟨3, ![2048, 4, 1]⟩
abbrev S2048x4x64 : Shape := ⟨3, ![2048, 4, 64]⟩
abbrev S2048x256x1 : Shape := ⟨3, ![2048, 256, 1]⟩
abbrev S2048x256x2 : Shape := ⟨3, ![2048, 256, 2]⟩
abbrev S1x2048 : Shape := ⟨2, ![1, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S1x2048x1, .f32⟩
  | .hbm, ⟨3, _⟩ => ⟨S4096x32, .f32⟩
  | .hbm, ⟨4, _⟩ => ⟨S4096x32, .i32⟩
  | .hbm, ⟨5, _⟩ => ⟨S4096, .f32⟩
  | .hbm, ⟨6, _⟩ => ⟨S8192x4096, .f32⟩
  | .hbm, ⟨7, _⟩ => ⟨S4x2048x1, .f32⟩
  | .hbm, ⟨8, _⟩ => ⟨S8192x1, .f32⟩
  | .hbm, ⟨9, _⟩ => ⟨S8192x4096, .f32⟩
  | .hbm, ⟨10, _⟩ => ⟨S4x2048x4096, .f32⟩
  | .local _ .vmem, ⟨0, _⟩ => ⟨S2048x512, .f32⟩
  | .local _ .vmem, ⟨1, _⟩ => ⟨S2048x512, .f32⟩
  | .local _ .vmem, ⟨2, _⟩ => ⟨S2048x1, .f32⟩
  | .local _ .vmem, ⟨3, _⟩ => ⟨S2048x1, .f32⟩
  | .local _ .vmem, ⟨4, _⟩ => ⟨S2048x256, .i32⟩
  | .local _ .vmem, ⟨5, _⟩ => ⟨S2048x256, .i32⟩
  | .local _ .vmem, ⟨6, _⟩ => ⟨S2048x32, .f32⟩
  | .local _ .vmem, ⟨7, _⟩ => ⟨S2048x32, .f32⟩
  | .local _ .vmem, ⟨8, _⟩ => ⟨S2048x32, .i32⟩
  | .local _ .vmem, ⟨9, _⟩ => ⟨S2048x32, .i32⟩
  | .local _ .vmem, ⟨10, _⟩ => ⟨S2048, .f32⟩
  | .local _ .vmem, ⟨11, _⟩ => ⟨S2048, .f32⟩
  | .local _ .vmem, ⟨12, _⟩ => ⟨S2048x2048, .f32⟩
  | .local _ .vmem, ⟨13, _⟩ => ⟨S2048x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 8], ![false, false, false]⟩

def k0_off1 (i : grid0.Coords) : Fin 2 → Nat :=
  let c0_9 : Index := 0#32
  let arg2 : BitVec 32 := BitVec.ofNat 32 (i 2).val
  let c4_i32_8 : BitVec 32 := 4#32
  let v26 : BitVec 32 := Scalar.muli arg2 c4_i32_8
  let v27 : Index := Scalar.indexCast v26
  ![0, v27.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x32 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S2048x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S4x2048x4096_S8192x4096 : S4x2048x4096.ShapeCasts S8192x4096
  bcast_S1x2048x1_S4x2048x1_0_1_2 : S1x2048x1.BroadcastsInDim S4x2048x1 (![0, 1, 2] : Fin 3 → Fin S4x2048x1.rank)
  shapeCasts_S4x2048x1_S8192x1 : S4x2048x1.ShapeCasts S8192x1
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  h_S2048x4 : 0 < S2048x4.numel
  shapeCasts_S2048x4_S2048x4x1 : S2048x4.ShapeCasts S2048x4x1
  broadcasts_S2048x4x1_S2048x4x64 : S2048x4x1.Broadcasts S2048x4x64
  shapeCasts_S2048x4x64_S2048x256 : S2048x4x64.ShapeCasts S2048x256
  shapeCasts_S2048x256_S2048x256x1 : S2048x256.ShapeCasts S2048x256x1
  concatenates_S2048x256x1_S2048x256x1_S2048x256x2_d2 : Shape.Concatenates [S2048x256x1, S2048x256x1] S2048x256x2 2
  shapeCasts_S2048x256x2_S2048x512 : S2048x256x2.ShapeCasts S2048x512
  shapeCasts_S2048x2048_S2048x2048 : S2048x2048.ShapeCasts S2048x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S2048x2048 : S1x2048.Broadcasts S2048x2048
  shapeCasts_S8192x4096_S4x2048x4096 : S8192x4096.ShapeCasts S4x2048x4096
  dot_S2048x512_S2048x512_S2048x2048_1_1_0_0_n_n_wf : DotDims.WF S2048x512 S2048x512 S2048x2048 [1] [1] [0] [0] [] []
  hrank0 : 0 < grid0.rank
  k0_off1_inb : ∀ i : grid0.Coords, ∀ a, (k0_off1 i) a + S2048x4.size a ≤ S2048x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .f32 = 32 ∨ (Rect.block (s := S8192x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S4096x2048.size a
  hwx0_2 : ∀ i : grid0.Coords, EltTy.bits .i32 = 32 ∨ (Rect.block (s := S4096x2048) S2048x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S4096x32.size a
  hwx0_3 : ∀ i : grid0.Coords, EltTy.bits .f32 = 32 ∨ (Rect.block (s := S4096x32) S2048x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x32.size a ≤ S4096x32.size a
  hwx0_4 : ∀ i : grid0.Coords, EltTy.bits .i32 = 32 ∨ (Rect.block (s := S4096x32) S2048x32.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S4096.size a
  hwx0_5 : ∀ i : grid0.Coords, EltTy.bits .f32 = 32 ∨ (Rect.block (s := S4096) S2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S8192x4096.size a
  hwx0_6 : ∀ i : grid0.Coords, EltTy.bits .f32 = 32 ∨ (Rect.block (s := S8192x4096) S2048x2048.size (cc0_transform_6 i) (hinb0_6 i)).WholeWords (EltTy.packing .f32)

variable [Facts₀]

def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S2048x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x2048 : Shape := ⟨2, ![4096, 2048]⟩
abbrev S1x2048x1 : Shape := ⟨3, ![1, 2048, 1]⟩
abbrev S4096x32 : Shape := ⟨2, ![4096, 32]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x32x128 : Shape := ⟨3, ![4096, 32, 128]⟩
abbrev S4096x32x1 : Shape := ⟨3, ![4096, 32, 1]⟩
abbrev S1x1x4096 : Shape := ⟨3, ![1, 1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S1x2048x1, .f32⟩
  | .hbm, ⟨3, _⟩ => ⟨S4096x32, .f32⟩
  | .hbm, ⟨4, _⟩ => ⟨S4096x32, .i32⟩
  | .hbm, ⟨5, _⟩ => ⟨S4096, .f32⟩
  | .hbm, ⟨6, _⟩ => ⟨S_, .i32⟩
  | .hbm, ⟨7, _⟩ => ⟨S4096x2048, .i32⟩
  | .hbm, ⟨8, _⟩ => ⟨S4096x2048, .i32⟩
  | .hbm, ⟨9, _⟩ => ⟨S_, .i32⟩
  | .hbm, ⟨10, _⟩ => ⟨S4096x2048, .i32⟩
  | .hbm, ⟨11, _⟩ => ⟨S4096x2048, .i32⟩
  | .hbm, ⟨12, _⟩ => ⟨S_, .i32⟩
  | .hbm, ⟨13, _⟩ => ⟨S4096x2048, .i32⟩
  | .hbm, ⟨14, _⟩ => ⟨S4096x2048, .i32⟩
  | .hbm, ⟨15, _⟩ => ⟨S4096x2048x1, .i32⟩
  | .hbm, ⟨16, _⟩ => ⟨S4096x2048x1, .i32⟩
  | .hbm, ⟨17, _⟩ => ⟨S4096x2048x2, .i32⟩
  | .hbm, ⟨18, _⟩ => ⟨S4096x4096, .i32⟩
  | .hbm, ⟨19, _⟩ => ⟨S4096x4096, .f32⟩
  | .hbm, ⟨20, _⟩ => ⟨S4096x32x128, .f32⟩
  | .hbm, ⟨21, _⟩ => ⟨S4096x32x1, .i32⟩
  | .hbm, ⟨22, _⟩ => ⟨S4096x32x1, .f32⟩
  | .hbm, ⟨23, _⟩ => ⟨S4096x32x128, .f32⟩
  | .hbm, ⟨24, _⟩ => ⟨S4096x32x128, .f32⟩
  | .hbm, ⟨25, _⟩ => ⟨S4096x32x1, .f32⟩
  | .hbm, ⟨26, _⟩ => ⟨S4096x32x128, .f32⟩
  | .hbm, ⟨27, _⟩ => ⟨S4096x32x128, .f32⟩
  | .hbm, ⟨28, _⟩ => ⟨S4096x4096, .f32⟩
  | .hbm, ⟨29, _⟩ => ⟨S4x2048x4096, .f32⟩
  | .hbm, ⟨30, _⟩ => ⟨S4x2048x4096, .f32⟩
  | .hbm, ⟨31, _⟩ => ⟨S4x2048x4096, .f32⟩
  | .hbm, ⟨32, _⟩ => ⟨S_, .i32⟩
  | .hbm, ⟨33, _⟩ => ⟨S_, .i32⟩
  | .hbm, ⟨34, _⟩ => ⟨S_, .f32⟩
  | .hbm, ⟨35, _⟩ => ⟨S4x2048x4096, .f32⟩
  | .hbm, ⟨36, _⟩ => ⟨S4x2048x4096, .f32⟩
  | .hbm, ⟨37, _⟩ => ⟨S_, .f32⟩
  | .hbm, ⟨38, _⟩ => ⟨S4x2048x4096, .f32⟩
  | .hbm, ⟨39, _⟩ => ⟨S4x2048x4096, .f32⟩
  | .hbm, ⟨40, _⟩ => ⟨S4x2048x4096, .f32⟩
  | .hbm, ⟨41, _⟩ => ⟨S4x2048x4096, .f32⟩
  | .hbm, ⟨42, _⟩ => ⟨S4x2048x4096, .f32⟩
  | .hbm, ⟨43, _⟩ => ⟨S1x1x4096, .f32⟩
  | .hbm, ⟨44, _⟩ => ⟨S4x2048x4096, .f32⟩
  | .hbm, ⟨45, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_c_3 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S1x2048x1_S4x2048x4096_0_1_2 : S1x2048x1.BroadcastsInDim S4x2048x4096 (![0, 1, 2] : Fin 3 → Fin S4x2048x4096.rank)
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The function both programs compute, stated once over the argument arrays.

  A linear layer whose weights are stored as packed 4-bit codes and whose activations are
  fake-quantised per token.  For a token row `(b, s)` and an output feature `o`

      out[b, s, o] = (∑ i < 4096, q(x[b, s, i], a[s]) · w[o, i]) + bias[o]

  where `q(x, a) = min 127 (max (-127) (round (x / a))) · a` rounds to nearest with ties to even, and the
  weight is read out of the packed word `Q[o, i / 2]` — its low nibble for an even column `i`, the next
  nibble for an odd one — shifted by the group's zero point `Z[o, i / 128]` and scaled by the group's
  scale `W[o, i / 128]`.  Columns are grouped 128 at a time, so a packed column `p = i / 2` lies in group
  `p / 64 = i / 128`.

  Everything is indexed by natural numbers (reduced modulo the extent, which never bites on the
  ranges used), so that the tiled and the untiled forms of the sum are sums over `Finset.range` and
  regroup by associativity and commutativity of addition alone: no law used here needs a finite
  operand, so the statement holds at the infinities too.
-/
import Idealize.ShloMosaic.PureOps.Ideal
import Idealize.ShloMosaic.PureOps.Ideal.Laws
import Idealize.ShloMosaic.Lib.ValueIdx
import Idealize.ShloMosaic.Lib.KernelVsHost

noncomputable section

namespace Cert.QuantLinear

open Idealize.ShloMosaic Idealize.ShloMosaic.ValueIdx

/-- A natural number as a coordinate of an axis of extent `N` (reduced modulo `N`). -/
def co (N : Nat) (hN : 0 < N) (a : Nat) : Fin N := ⟨a % N, Nat.mod_lt _ hN⟩

@[simp] theorem co_val (N : Nat) (hN : 0 < N) (a : Nat) : (co N hN a).val = a % N := rfl

theorem co_of_lt {N : Nat} (hN : 0 < N) (a : Fin N) (b : Nat) (h : b = a.val) : co N hN b = a :=
  Fin.ext (by rw [co_val, h, Nat.mod_eq_of_lt a.isLt])

/-- The upper clamp, `127`, as the float literal the kernel splats. -/
abbrev qmax : EReal := Ideal.ofBits .f32 0x42FE0000#32
/-- The lower clamp, `-127`. -/
abbrev qmin : EReal := Ideal.ofBits .f32 0xC2FE0000#32

/-- Per-token fake quantisation of one activation `x` with the token's scale `a`. -/
def fakeQuant (x a : EReal) : EReal :=
  min qmax (max qmin (Ideal.liftRound Ideal.roundHalfEven (Ideal.div x a))) * a

/-- The 4-bit code of an even (`e % 2 = 0`: the low nibble) or odd (the next nibble) column in a packed word. -/
def nibble (q : BitVec 32) (e : Nat) : BitVec 32 :=
  if e % 2 = 0 then IntOp.andi q 15#32 else IntOp.andi (IntOp.shrsi .vector q 4#32) 15#32

/-- A code dequantised with its group's zero point and scale. -/
def dequant (code zero : BitVec 32) (scale : EReal) : EReal :=
  (((code.toInt : ℝ) : EReal) - ((zero.toInt : ℝ) : EReal)) * scale

abbrev XIdx := (⟨3, ![4, 2048, 4096]⟩ : Shape).Idx
abbrev AIdx := (⟨3, ![1, 2048, 1]⟩ : Shape).Idx
abbrev QIdx := (⟨2, ![4096, 2048]⟩ : Shape).Idx
abbrev GIdx := (⟨2, ![4096, 32]⟩ : Shape).Idx
abbrev BIdx := (⟨1, ![4096]⟩ : Shape).Idx

section
variable (X : XIdx → EReal) (A : AIdx → EReal) (Q : QIdx → BitVec 32) (W : GIdx → EReal) (Z : GIdx → BitVec 32)
  (B : BIdx → EReal)

/-- The quantised activation of token row `r = b · 2048 + s` at column `i`. -/
def act (r i : Nat) : EReal :=
  fakeQuant (X (ix3 (co 4 (by decide) (r / 2048)) (co 2048 (by decide) r) (co 4096 (by decide) i)))
    (A (ix3 (0 : Fin 1) (co 2048 (by decide) r) (0 : Fin 1)))

/-- The dequantised weight of output feature `o` at column `i`. -/
def weight (o i : Nat) : EReal :=
  dequant (nibble (Q (ix2 (co 4096 (by decide) o) (co 2048 (by decide) (i / 2)))) i)
    (Z (ix2 (co 4096 (by decide) o) (co 32 (by decide) (i / 128))))
    (W (ix2 (co 4096 (by decide) o) (co 32 (by decide) (i / 128))))

/-- One product of the contraction. -/
def term (r o i : Nat) : EReal := act X A r i * weight Q W Z o i

/-- The contraction over one tile of 512 columns. -/
def tileSum (r o k : Nat) : EReal := ∑ j ∈ Finset.range 512, term X A Q W Z r o (k * 512 + j)

/-- The tiles `0 … k` accumulated. -/
def accSum (r o k : Nat) : EReal := ∑ k' ∈ Finset.range (k + 1), tileSum X A Q W Z r o k'

/-- The layer's output at flat token row `r` and feature `o`. -/
def outFlat (r o : Nat) : EReal :=
  (∑ i ∈ Finset.range 4096, term X A Q W Z r o i) + B (ix1 (co 4096 (by decide) o))

/-- The layer's output as an array over `(b, s, o)`. -/
def out (j : XIdx) : EReal := outFlat X A Q W Z B ((j 0).val * 2048 + (j 1).val) (j 2).val

theorem accSum_zero (r o : Nat) : accSum X A Q W Z r o 0 = tileSum X A Q W Z r o 0 := by
  unfold accSum; rw [Finset.sum_range_one]

theorem accSum_succ (r o k : Nat) :
    accSum X A Q W Z r o (k + 1) = accSum X A Q W Z r o k + tileSum X A Q W Z r o (k + 1) := by
  unfold accSum; rw [Finset.sum_range_succ]

end

/-- A sum over `K` consecutive tiles of `n` terms is the sum over all `K · n` terms: addition in a
    commutative monoid regroups freely. -/
theorem sum_tiles {M : Type*} [AddCommMonoid M] (f : Nat → M) (n : Nat) :
    ∀ K : Nat, ∑ k ∈ Finset.range K, ∑ j ∈ Finset.range n, f (k * n + j) = ∑ i ∈ Finset.range (K * n), f i
  | 0 => by simp
  | K + 1 => by
    rw [Finset.sum_range_succ, sum_tiles f n K, Nat.succ_mul, Finset.sum_range_add]

section
variable (X : XIdx → EReal) (A : AIdx → EReal) (Q : QIdx → BitVec 32) (W : GIdx → EReal) (Z : GIdx → BitVec 32)
  (B : BIdx → EReal)

/-- All eight tiles accumulated, plus the bias, is the layer's output. -/
theorem accSum_last_add_bias (r o : Nat) :
    accSum X A Q W Z r o 7 + B (ix1 (co 4096 (by decide) o)) = outFlat X A Q W Z B r o := by
  unfold accSum outFlat tileSum
  rw [sum_tiles (fun i => term X A Q W Z r o i) 512 8]

end

/-! ### The clamps are the integers ±127 -/

theorem qmax_eq : qmax = ((127 : ℝ) : EReal) := by
  simp [qmax, Ideal.ofBits, Ideal.ieee, -EReal.coe_mul]; norm_num

theorem qmin_eq : qmin = ((-127 : ℝ) : EReal) := by
  simp [qmin, Ideal.ofBits, Ideal.ieee, -EReal.coe_mul]; norm_num

theorem sitofp_127 : (((127#32 : BitVec 32).toInt : ℝ) : EReal) = qmax := by
  rw [qmax_eq, show (127#32 : BitVec 32).toInt = 127 by decide]; norm_num

theorem sitofp_neg127 : (((4294967169#32 : BitVec 32).toInt : ℝ) : EReal) = qmin := by
  rw [qmin_eq, show (4294967169#32 : BitVec 32).toInt = -127 by decide]; norm_num

end Cert.QuantLinear

end
-- ==== Proof.RefValue.lean ====
/-
  The reference side of the certificate: the printed reference program's result, read one operation at
  a time, is the layer's output `Cert.QuantLinear.out` of its six arguments.

  At an output index `(b, s, o)` the reference adds the bias `B[o]` to a contraction over the 4096
  columns; the left factor of each product is the fake-quantised activation of token row
  `b · 2048 + s`, the right factor is the dequantised weight `(o, k)`.  The weight's 4-bit code comes
  out of a concatenation of the low nibbles and the next nibbles along a new last axis, flattened: an even
  column reads the first piece, an odd column the second.
-/
import proofs.«430562_j68324339745160_1_alg».proof.Proof.Spec
import proofs.«430562_j68324339745160_1_alg».proof.Proof.Gen.ReferenceIdeal.Read
import Idealize.ShloMosaic.Lib.Pipeline.Value
import Idealize.ShloMosaic.Lib.ValueIdx
import Idealize.ShloMosaic.Lib.KernelVsHost
import Idealize.ShloMosaic.PureOps.Ideal

noncomputable section

namespace Cert.QuantLinear.Ref

open Cert.ReferenceIdeal Cert.ReferenceIdeal.Gen Cert.ReferenceIdeal.Read Cert.QuantLinear
open Idealize.ShloMosaic Idealize.ShloMosaic.ValueIdx Idealize.ShloMosaic.TcCoe Idealize.SL.Sem Idealize.ShloMosaic.StableHlo

/-- A natural number whose residue is a given coordinate's value is that coordinate. -/
theorem co_eq {N : Nat} (hN : 0 < N) (a : Nat) (c : Fin N) (h : a % N = c.val) : co N hN a = c :=
  Fin.ext (by rw [co_val]; exact h)

/-! ### The activation factor -/

/-- The scale's index under the first broadcast of the scale. -/
theorem idx_v20_ix3 (b : Fin 4) (s : Fin 2048) (k : Fin 4096) :
    idx_main_v20 (ix3 b s k) = ix3 (0 : Fin 1) s (0 : Fin 1) := by
  funext a; match a with | ⟨0, _⟩ => rfl | ⟨1, _⟩ => rfl | ⟨2, _⟩ => rfl

/-- The scale's index under the second broadcast of the scale. -/
theorem idx_v24_ix3 (b : Fin 4) (s : Fin 2048) (k : Fin 4096) :
    idx_main_v24 (ix3 b s k) = ix3 (0 : Fin 1) s (0 : Fin 1) := by
  funext a; match a with | ⟨0, _⟩ => rfl | ⟨1, _⟩ => rfl | ⟨2, _⟩ => rfl

/-- The left operand of the contraction at `(b, s, k)` is the fake-quantised activation of token row
    `b · 2048 + s` at column `k`. -/
theorem v25_ix3 (x0 : (⟨S4x2048x4096, .f32⟩ : BufTy).Contents (Elt Ideal))
    (x2 : (⟨S1x2048x1, .f32⟩ : BufTy).Contents (Elt Ideal)) (b : Fin 4) (s : Fin 2048) (k : Fin 4096) :
    val_main_v25 (F := Ideal) x0 x2 (ix3 b s k) = act x0 x2 (b.val * 2048 + s.val) k.val := by
  rw [val_main_v25_apply, val_main_v23_apply, val_main_v24_apply, val_main_call1_v4_apply,
    val_main_call1_v3_apply, val_main_c_3_apply, val_main_call1_v2_apply, val_main_call1_v1_apply,
    val_main_call1_v0_apply, val_main_c_2_apply, val_main_v22_apply, val_main_v21_apply, val_main_v20_apply,
    idx_v20_ix3, idx_v24_ix3]
  have hb : co 4 (by decide) ((b.val * 2048 + s.val) / 2048) = b :=
    co_eq _ _ _ (by have := b.isLt; have := s.isLt; omega)
  have hs : co 2048 (by decide) (b.val * 2048 + s.val) = s :=
    co_eq _ _ _ (by have := s.isLt; omega)
  have hk : co 4096 (by decide) k.val = k := co_eq _ _ _ (Nat.mod_eq_of_lt k.isLt)
  unfold act fakeQuant
  rw [hb, hs, hk, ← sitofp_127, ← sitofp_neg127]
  rfl

/-! ### The 4-bit code -/

/-- Where the flattened `[4096, 4096]` index `(o, k)` falls in the `[4096, 2048, 2]` concatenation: packed column
    `k / 2`, piece `k % 2`. -/
theorem idx_v9_val0 (o k : Fin 4096) : (idx_main_v9 (ix2 o k) 0).val = o.val := by
  show (o.val * 4096 + k.val) / 4096 = o.val
  have := k.isLt; omega
theorem idx_v9_val1 (o k : Fin 4096) : (idx_main_v9 (ix2 o k) 1).val = k.val / 2 := by
  show (o.val * 4096 + k.val) / 2 % 2048 = k.val / 2
  have := k.isLt; omega
theorem idx_v9_val2 (o k : Fin 4096) : (idx_main_v9 (ix2 o k) 2).val = k.val % 2 := by
  show (o.val * 4096 + k.val) % 2 = k.val % 2
  omega

/-- The packed word's index under either piece's broadcast to a unit last axis. -/
theorem idx_v6_ix3 (o : Fin 4096) (p : Fin 2048) (z : Fin 1) : idx_main_v6 (ix3 o p z) = ix2 o p := by
  funext a; match a with | ⟨0, _⟩ => rfl | ⟨1, _⟩ => rfl
theorem idx_v7_ix3 (o : Fin 4096) (p : Fin 2048) (z : Fin 1) : idx_main_v7 (ix3 o p z) = ix2 o p := by
  funext a; match a with | ⟨0, _⟩ => rfl | ⟨1, _⟩ => rfl

/-- An even column reads the first piece of the concatenation: the packed word's low nibble. -/
theorem v8_even (x1 : (⟨S4096x2048, .i32⟩ : BufTy).Contents (Elt Ideal)) (o k : Fin 4096) (hk : k.val % 2 = 0) :
    val_main_v8 (F := Ideal) x1 (idx_main_v9 (ix2 o k))
      = IntOp.andi (x1 (ix2 o (co 2048 (by decide) (k.val / 2)))) 15#32 := by
  have hp : k.val / 2 % 2048 = k.val / 2 := Nat.mod_eq_of_lt (by have := k.isLt; omega)
  unfold val_main_v8
  rw [concatenate_pair_apply_left (2 : Fin 3) (val_main_v6 (F := Ideal) x1) (val_main_v7 (F := Ideal) x1)
    concatenates_S4096x2048x1_S4096x2048x1_S4096x2048x2_d2 (idx_main_v9 (ix2 o k)) rfl
    (ix3 o (co 2048 (by decide) (k.val / 2)) (0 : Fin 1))
    (fun b => match b with
      | ⟨0, _⟩ => (idx_v9_val0 o k).symm
      | ⟨1, _⟩ => by
        show (k.val / 2) % 2048 = _
        rw [hp]; exact (idx_v9_val1 o k).symm
      | ⟨2, _⟩ => by
        show (0 : Nat) = _
        exact (hk.symm.trans (idx_v9_val2 o k).symm))]
  rw [val_main_v6_apply, idx_v6_ix3, val_main_v1_apply, val_main_v0_apply, val_main_c_apply]

/-- An odd column reads the second piece: the packed word's next nibble. -/
theorem v8_odd (x1 : (⟨S4096x2048, .i32⟩ : BufTy).Contents (Elt Ideal)) (o k : Fin 4096) (hk : k.val % 2 = 1) :
    val_main_v8 (F := Ideal) x1 (idx_main_v9 (ix2 o k))
      = IntOp.andi (IntOp.shrsi .host (x1 (ix2 o (co 2048 (by decide) (k.val / 2)))) 4#32) 15#32 := by
  have hp : k.val / 2 % 2048 = k.val / 2 := Nat.mod_eq_of_lt (by have := k.isLt; omega)
  unfold val_main_v8
  rw [concatenate_pair_apply_right (2 : Fin 3) (val_main_v6 (F := Ideal) x1) (val_main_v7 (F := Ideal) x1)
    concatenates_S4096x2048x1_S4096x2048x1_S4096x2048x2_d2 (idx_main_v9 (ix2 o k)) rfl rfl
    (ix3 o (co 2048 (by decide) (k.val / 2)) (0 : Fin 1))
    (fun b => match b with
      | ⟨0, _⟩ => fun _ => (idx_v9_val0 o k).symm
      | ⟨1, _⟩ => fun _ => by
        show (k.val / 2) % 2048 = _
        rw [hp]; exact (idx_v9_val1 o k).symm
      | ⟨2, _⟩ => fun h => absurd rfl h)
    (by
      show (0 : Nat) + 1 = _
      exact (hk.symm.trans (idx_v9_val2 o k).symm))]
  rw [val_main_v7_apply, idx_v7_ix3, val_main_v5_apply, val_main_v3_apply, val_main_v2_apply, val_main_c_0_apply,
    val_main_v4_apply, val_main_c_1_apply]

/-- The flattened code at `(o, k)` is the nibble of column `k` in the packed word `(o, k / 2)`. -/
theorem v9_ix2 (x1 : (⟨S4096x2048, .i32⟩ : BufTy).Contents (Elt Ideal)) (o k : Fin 4096) :
    val_main_v9 (F := Ideal) x1 (ix2 o k) = nibble (x1 (ix2 o (co 2048 (by decide) (k.val / 2)))) k.val := by
  rw [val_main_v9_apply]
  unfold nibble
  by_cases hk : k.val % 2 = 0
  · rw [if_pos hk, v8_even x1 o k hk]
  · rw [if_neg hk, v8_odd x1 o k (by omega), shrsi_unit .host .vector]

/-! ### The weight factor -/

/-- Regrouping the columns 128 at a time and flattening again returns to the column. -/
theorem idx_v11_v19_ix2 (o k : Fin 4096) : idx_main_v11 (idx_main_v19 (ix2 o k)) = ix2 o k := by
  funext a
  match a with
  | ⟨0, _⟩ =>
    refine Fin.ext ?_
    show ((((o.val * 4096 + k.val) / 4096) * 32 + (o.val * 4096 + k.val) / 128 % 32) * 128
      + (o.val * 4096 + k.val) % 128) / 4096 = o.val
    have := k.isLt; omega
  | ⟨1, _⟩ =>
    refine Fin.ext ?_
    show ((((o.val * 4096 + k.val) / 4096) * 32 + (o.val * 4096 + k.val) / 128 % 32) * 128
      + (o.val * 4096 + k.val) % 128) % 4096 = k.val
    have := k.isLt; omega

/-- The group of column `k` of row `o`: the zero point's and the scale's index under their broadcasts. -/
theorem idx_v12_v14_v19_ix2 (o k : Fin 4096) :
    idx_main_v12 (idx_main_v14 (idx_main_v19 (ix2 o k))) = ix2 o (co 32 (by decide) (k.val / 128)) := by
  funext a
  match a with
  | ⟨0, _⟩ =>
    refine Fin.ext ?_
    show (o.val * 4096 + k.val) / 4096 = o.val
    have := k.isLt; omega
  | ⟨1, _⟩ =>
    refine Fin.ext ?_
    show (o.val * 4096 + k.val) / 128 % 32 = k.val / 128 % 32
    have := k.isLt; omega
theorem idx_v16_v17_v19_ix2 (o k : Fin 4096) :
    idx_main_v16 (idx_main_v17 (idx_main_v19 (ix2 o k))) = ix2 o (co 32 (by decide) (k.val / 128)) := by
  funext a
  match a with
  | ⟨0, _⟩ =>
    refine Fin.ext ?_
    show (o.val * 4096 + k.val) / 4096 = o.val
    have := k.isLt; omega
  | ⟨1, _⟩ =>
    refine Fin.ext ?_
    show (o.val * 4096 + k.val) / 128 % 32 = k.val / 128 % 32
    have := k.isLt; omega

/-- The right operand of the contraction at `(o, k)` is the dequantised weight of feature `o` at column `k`. -/
theorem v19_ix2 (x1 : (⟨S4096x2048, .i32⟩ : BufTy).Contents (Elt Ideal))
    (x3 : (⟨S4096x32, .f32⟩ : BufTy).Contents (Elt Ideal)) (x4 : (⟨S4096x32, .i32⟩ : BufTy).Contents (Elt Ideal))
    (o k : Fin 4096) :
    val_main_v19 (F := Ideal) x1 x3 x4 (ix2 o k) = weight x1 x3 x4 o.val k.val := by
  rw [val_main_v19_apply, val_main_v18_apply, val_main_v15_apply, val_main_v17_apply, val_main_v16_apply,
    val_main_v14_apply, val_main_v13_apply, val_main_v12_apply, val_main_v11_apply, val_main_v10_apply,
    idx_v11_v19_ix2, idx_v12_v14_v19_ix2, idx_v16_v17_v19_ix2, v9_ix2]
  have ho : co 4096 (by decide) o.val = o := co_eq _ _ _ (Nat.mod_eq_of_lt o.isLt)
  unfold weight dequant
  rw [ho]
  rfl

/-! ### The assembly -/

/-- The contraction's operand indices at output `(b, s, o)` and column `k`. -/
theorem lidx_v26_ix3 (b : Fin 4) (s : Fin 2048) (o k : Fin 4096) : lidx_main_v26 (ix3 b s o) k = ix3 b s k := by
  funext a; match a with | ⟨0, _⟩ => rfl | ⟨1, _⟩ => rfl | ⟨2, _⟩ => rfl
theorem ridx_v26_ix3 (b : Fin 4) (s : Fin 2048) (o k : Fin 4096) : ridx_main_v26 (ix3 b s o) k = ix2 o k := by
  funext a; match a with | ⟨0, _⟩ => rfl | ⟨1, _⟩ => rfl

/-- The bias's index under its two broadcasts. -/
theorem idx_v27_v28_ix3 (b : Fin 4) (s : Fin 2048) (o : Fin 4096) :
    idx_main_v27 (idx_main_v28 (ix3 b s o)) = ix1 (co 4096 (by decide) o.val) := by
  funext a
  match a with
  | ⟨0, _⟩ =>
    refine Fin.ext ?_
    show o.val = o.val % 4096
    exact (Nat.mod_eq_of_lt o.isLt).symm

/-- The reference's result at `(b, s, o)`. -/
theorem v29_ix3 (x0 : (⟨S4x2048x4096, .f32⟩ : BufTy).Contents (Elt Ideal))
    (x1 : (⟨S4096x2048, .i32⟩ : BufTy).Contents (Elt Ideal)) (x2 : (⟨S1x2048x1, .f32⟩ : BufTy).Contents (Elt Ideal))
    (x3 : (⟨S4096x32, .f32⟩ : BufTy).Contents (Elt Ideal)) (x4 : (⟨S4096x32, .i32⟩ : BufTy).Contents (Elt Ideal))
    (x5 : (⟨S4096, .f32⟩ : BufTy).Contents (Elt Ideal)) (b : Fin 4) (s : Fin 2048) (o : Fin 4096) :
    val_main_v29 (F := Ideal) x0 x1 x2 x3 x4 x5 (ix3 b s o)
      = outFlat x0 x2 x1 x3 x4 x5 (b.val * 2048 + s.val) o.val := by
  rw [val_main_v29_apply, Ideal.addf_def, val_main_v26_apply, val_main_v28_apply, val_main_v27_apply,
    idx_v27_v28_ix3]
  unfold outFlat
  congr 1
  rw [← Fin.sum_univ_eq_sum_range (fun i => term x0 x2 x1 x3 x4 (b.val * 2048 + s.val) o.val i) 4096]
  refine Finset.sum_congr rfl fun k _ => ?_
  rw [lidx_v26_ix3, ridx_v26_ix3, v25_ix3, v19_ix2]
  rfl

/-- The reference program's result is the layer's output of its arguments. -/
theorem ref_eq_out (x0 : (⟨Cert.ReferenceIdeal.S4x2048x4096, .f32⟩ : BufTy).Contents (Elt Ideal))
    (x1 : (⟨Cert.ReferenceIdeal.S4096x2048, .i32⟩ : BufTy).Contents (Elt Ideal))
    (x2 : (⟨Cert.ReferenceIdeal.S1x2048x1, .f32⟩ : BufTy).Contents (Elt Ideal))
    (x3 : (⟨Cert.ReferenceIdeal.S4096x32, .f32⟩ : BufTy).Contents (Elt Ideal))
    (x4 : (⟨Cert.ReferenceIdeal.S4096x32, .i32⟩ : BufTy).Contents (Elt Ideal))
    (x5 : (⟨Cert.ReferenceIdeal.S4096, .f32⟩ : BufTy).Contents (Elt Ideal)) :
    Cert.ReferenceIdeal.Read.val_main_v29 (F := Ideal) x0 x1 x2 x3 x4 x5 = Cert.QuantLinear.out x0 x2 x1 x3 x4 x5 := by
  funext j
  obtain ⟨b, s, o, rfl⟩ : ∃ b s o, j = ix3 b s o := ⟨j 0, j 1, j 2, eq_ix3 j⟩
  exact v29_ix3 x0 x1 x2 x3 x4 x5 b s o

end Cert.QuantLinear.Ref

end
-- ==== Proof.KTile.lean ====
/-
  One grid point's arithmetic, read at an element.

  At a grid point the kernel holds a [2048, 512] block of activations with its [2048, 1] column of token scales, a
  [2048, 256] block of packed codes, and the [2048, 4] columns of the four weight groups the tile meets (scales and
  zero points).  It fake-quantises the activations, dequantises the two nibbles of every packed word, interleaves them
  back into 512 weight columns (column `2p` the low nibble of packed column `p`, column `2p + 1` the next nibble),
  contracts the two blocks over their 512 columns and adds the result to what the output block held.  Read at element
  `(r, c)` of the [2048, 2048] output block this is the previous value plus the sum over `j < 512` of the quantised
  activation `(r, j)` times the dequantised weight of row `c` at column `j`, whose packed column is `j / 2` and whose
  group within the tile is `j / 128` (packed columns are grouped 64 at a time, and `(j / 2) / 64 = j / 128`).
-/
import proofs.«430562_j68324339745160_1_alg».proof.Proof.Spec
import proofs.«430562_j68324339745160_1_alg».proof.Proof.Gen.KernelIdeal.Skeleton
import Idealize.ShloMosaic.Lib.Pipeline.Value
import Idealize.ShloMosaic.Lib.ValueLayout

noncomputable section

namespace Cert.QuantLinear.Tile

open Idealize.ShloMosaic Idealize.ShloMosaic.ValueIdx Cert.QuantLinear
open Cert.KernelIdeal Cert.KernelIdeal.Gen

/-- One product of a tile's contraction, from the tile's blocks: activations `xb` with token scales `ab`, packed codes
    `qb`, and the tile's four groups' scales `wb` and zero points `zb`. -/
def blockTerm (xb : Vec Ideal S2048x512 .f32) (ab : Vec Ideal S2048x1 .f32) (qb : Vec Ideal S2048x256 .i32)
    (wb : Vec Ideal S2048x4 .f32) (zb : Vec Ideal S2048x4 .i32) (r c : Fin 2048) (j : Nat) : EReal :=
  fakeQuant (xb (ix2 r (co 512 (by decide) j))) (ab (ix2 r (0 : Fin 1)))
    * dequant (nibble (qb (ix2 c (co 256 (by decide) (j / 2)))) j) (zb (ix2 c (co 4 (by decide) (j / 128))))
        (wb (ix2 c (co 4 (by decide) (j / 128))))

/-! ### Layout operations at coordinates -/

section Layout
variable {α : Type}

/-- A column `[a, 1]` laid across `b` columns reads, at `(r, j)`, the column's entry of row `r`. -/
theorem broadcastTo_col_apply {a b : Nat} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The per-group columns spread over the packed columns: a `[2048, 4]` array given a trailing unit axis, repeated 64
    times along it and flattened to `[2048, 256]` reads, at `(c, p)`, the entry of group `p / 64`. -/
theorem groupCols_apply (y : S2048x4.Idx → α) (c : Fin 2048) (p : Fin 256) :
    shapeCast S2048x256
        (broadcastTo S2048x4x64 (shapeCast S2048x4x1 y shapeCasts_S2048x4_S2048x4x1) broadcasts_S2048x4x1_S2048x4x64)
        shapeCasts_S2048x4x64_S2048x256 (ix2 c p)
      = y (ix2 c (⟨p.val / 64, by have := p.isLt; omega⟩ : Fin 4)) := by
  have hg : p.val / 64 < 4 := by have := p.isLt; omega
  have hl : p.val % 64 < 64 := Nat.mod_lt _ (by decide)
  refine (shapeCast_apply _ shapeCasts_S2048x4x64_S2048x256 (ix2 c p)
    (ix3 c (⟨p.val / 64, hg⟩ : Fin 4) (⟨p.val % 64, hl⟩ : Fin 64)) ?_).trans ?_
  · rw [Shape.rowMajor_val_three, Shape.rowMajor_val_two]
    show (c.val * 4 + p.val / 64) * 64 + p.val % 64 = c.val * 256 + p.val
    omega
  refine (broadcastTo_apply _ broadcasts_S2048x4x1_S2048x4x64 _
    (ix3 c (⟨p.val / 64, hg⟩ : Fin 4) (0 : Fin 1)) fun ax => ?_).trans ?_
  · match ax with
    | ⟨0, _⟩ => rfl
    | ⟨1, _⟩ => rfl
    | ⟨2, _⟩ => rfl
  refine shapeCast_apply y shapeCasts_S2048x4_S2048x4x1 _ (ix2 c (⟨p.val / 64, hg⟩ : Fin 4)) ?_
  rw [Shape.rowMajor_val_three, Shape.rowMajor_val_two]
  show c.val * 4 + p.val / 64 = (c.val * 4 + p.val / 64) * 1 + 0
  omega

/-- Two `[2048, 256]` arrays interleaved column by column: each given a trailing unit axis, joined along it and
    flattened to `[2048, 512]`.  Column `j` reads the first array at `j / 2` when `j` is even and the second when odd. -/
theorem interleave_apply (u w : S2048x256.Idx → α) (c : Fin 2048) (j : Fin 512) :
    shapeCast S2048x512
        (concatenate S2048x256x2 2
          [⟨S2048x256x1, shapeCast S2048x256x1 u shapeCasts_S2048x256_S2048x256x1⟩,
           ⟨S2048x256x1, shapeCast S2048x256x1 w shapeCasts_S2048x256_S2048x256x1⟩]
          concatenates_S2048x256x1_S2048x256x1_S2048x256x2_d2)
        shapeCasts_S2048x256x2_S2048x512 (ix2 c j)
      = if j.val % 2 = 0 then u (ix2 c (⟨j.val / 2, by have := j.isLt; omega⟩ : Fin 256))
        else w (ix2 c (⟨j.val / 2, by have := j.isLt; omega⟩ : Fin 256)) := by
  have hp : j.val / 2 < 256 := by have := j.isLt; omega
  have hb : j.val % 2 < 2 := Nat.mod_lt _ (by decide)
  refine (shapeCast_apply _ shapeCasts_S2048x256x2_S2048x512 (ix2 c j)
    (ix3 c (⟨j.val / 2, hp⟩ : Fin 256) (⟨j.val % 2, hb⟩ : Fin 2)) ?_).trans ?_
  · rw [Shape.rowMajor_val_three, Shape.rowMajor_val_two]
    show (c.val * 256 + j.val / 2) * 2 + j.val % 2 = c.val * 512 + j.val
    omega
  by_cases he : j.val % 2 = 0
  · rw [if_pos he]
    refine (concatenate_pair_apply_left (t := S2048x256x2) (s₁ := S2048x256x1) (s₂ := S2048x256x1) 2 _ _ concatenates_S2048x256x1_S2048x256x1_S2048x256x2_d2 _ rfl
      (ix3 c (⟨j.val / 2, hp⟩ : Fin 256) (0 : Fin 1)) fun b => ?_).trans ?_
    · match b with
      | ⟨0, _⟩ => rfl
      | ⟨1, _⟩ => rfl
      | ⟨2, _⟩ => exact he.symm
    refine shapeCast_apply u shapeCasts_S2048x256_S2048x256x1 _ (ix2 c (⟨j.val / 2, hp⟩ : Fin 256)) ?_
    rw [Shape.rowMajor_val_three, Shape.rowMajor_val_two]
    show c.val * 256 + j.val / 2 = (c.val * 256 + j.val / 2) * 1 + 0
    omega
  · rw [if_neg he]
    have h1 : j.val % 2 = 1 := by omega
    refine (concatenate_pair_apply_right (t := S2048x256x2) (s₁ := S2048x256x1) (s₂ := S2048x256x1) 2 _ _ concatenates_S2048x256x1_S2048x256x1_S2048x256x2_d2 _ rfl rfl
      (ix3 c (⟨j.val / 2, hp⟩ : Fin 256) (0 : Fin 1)) (fun b hb' => ?_) ?_).trans ?_
    · match b with
      | ⟨0, _⟩ => rfl
      | ⟨1, _⟩ => rfl
      | ⟨2, _⟩ => exact absurd rfl hb'
    · show 0 + 1 = j.val % 2
      omega
    refine shapeCast_apply w shapeCasts_S2048x256_S2048x256x1 _ (ix2 c (⟨j.val / 2, hp⟩ : Fin 256)) ?_
    rw [Shape.rowMajor_val_three, Shape.rowMajor_val_two]
    show c.val * 256 + j.val / 2 = (c.val * 256 + j.val / 2) * 1 + 0
    omega

end Layout

/-! ### The pointwise pieces at an element -/

/-- The quantised activation block at `(r, j)`: the specification's fake quantisation of the activation with the
    scale of its token row. -/
theorem quantAct_apply (xb : Vec Ideal S2048x512 .f32) (ab : Vec Ideal S2048x1 .f32) (r : Fin 2048) (j : Fin 512) :
    k0_pay4 (F := Ideal) xb ab (ix2 r j) = fakeQuant (xb (ix2 r j)) (ab (ix2 r (0 : Fin 1))) := by
  unfold k0_pay4
  rw [shapeCast_self xb shapeCasts_S2048x512_S2048x512, shapeCast_self ab shapeCasts_S2048x1_S2048x1]
  show min (Ideal.ofBits .f32 0x42FE0000#32) (max (Ideal.ofBits .f32 0xC2FE0000#32)
      (Ideal.liftRound Ideal.roundHalfEven
        (Ideal.div (xb (ix2 r j)) (broadcastTo S2048x512 ab broadcasts_S2048x1_S2048x512 (ix2 r j)))))
      * broadcastTo S2048x512 ab broadcasts_S2048x1_S2048x512 (ix2 r j) = _
  rw [broadcastTo_col_apply ab broadcasts_S2048x1_S2048x512 r j]
  rfl

/-- The group scales spread over the packed columns, at `(c, p)`. -/
theorem scaleCols_apply (wb : Vec Ideal S2048x4 .f32) (c : Fin 2048) (p : Fin 256) :
    k0_pay6 (F := Ideal) wb (ix2 c p) = wb (ix2 c (⟨p.val / 64, by have := p.isLt; omega⟩ : Fin 4)) := by
  unfold k0_pay6
  exact groupCols_apply wb c p

/-- The group zero points, converted and spread over the packed columns, at `(c, p)`. -/
theorem zeroCols_apply (zb : Vec Ideal S2048x4 .i32) (c : Fin 2048) (p : Fin 256) :
    k0_pay7 (F := Ideal) zb (ix2 c p)
      = (((zb (ix2 c (⟨p.val / 64, by have := p.isLt; omega⟩ : Fin 4))).toInt : ℝ) : EReal) := by
  unfold k0_pay7
  exact groupCols_apply (sitofp (F := Ideal) .f32 zb) c p

/-- The low nibble's dequantised block at `(c, p)`. -/
theorem lowNibble_apply (qb : Vec Ideal S2048x256 .i32) (wb : Vec Ideal S2048x4 .f32) (zb : Vec Ideal S2048x4 .i32)
    (c : Fin 2048) (p : Fin 256) :
    k0_pay8 (F := Ideal) qb wb zb (ix2 c p)
      = dequant (IntOp.andi (qb (ix2 c p)) 15#32) (zb (ix2 c (⟨p.val / 64, by have := p.isLt; omega⟩ : Fin 4)))
          (wb (ix2 c (⟨p.val / 64, by have := p.isLt; omega⟩ : Fin 4))) := by
  unfold k0_pay8
  show ((((IntOp.andi (qb (ix2 c p)) 15#32).toInt : ℝ) : EReal) - k0_pay7 (F := Ideal) zb (ix2 c p))
      * k0_pay6 (F := Ideal) wb (ix2 c p) = _
  rw [zeroCols_apply zb c p, scaleCols_apply wb c p]
  rfl

/-- The next nibble's dequantised block at `(c, p)`. -/
theorem highNibble_apply (qb : Vec Ideal S2048x256 .i32) (wb : Vec Ideal S2048x4 .f32) (zb : Vec Ideal S2048x4 .i32)
    (c : Fin 2048) (p : Fin 256) :
    mulf (subf (k0_pay5 (F := Ideal) qb) (k0_pay7 (F := Ideal) zb)) (k0_pay6 (F := Ideal) wb) (ix2 c p)
      = dequant (IntOp.andi (IntOp.shrsi .vector (qb (ix2 c p)) 4#32) 15#32)
          (zb (ix2 c (⟨p.val / 64, by have := p.isLt; omega⟩ : Fin 4)))
          (wb (ix2 c (⟨p.val / 64, by have := p.isLt; omega⟩ : Fin 4))) := by
  rw [mulf_apply, subf_apply, zeroCols_apply zb c p, scaleCols_apply wb c p]
  rfl

/-! ### The dequantised weight block -/

/-- The tile's dequantised weights as the kernel lays them out: the low nibbles' block and the next nibbles' block
    interleaved column by column. -/
def weightBlock (qb : Vec Ideal S2048x256 .i32) (wb : Vec Ideal S2048x4 .f32) (zb : Vec Ideal S2048x4 .i32) :
    FVec Ideal S2048x512 .bf16 :=
  shapeCast S2048x512
    (concatenate S2048x256x2 2
      [⟨S2048x256x1, shapeCast S2048x256x1
          (truncf .bf16 (k0_pay8 (F := Ideal) qb wb zb) bitsLt_bf16_f32) shapeCasts_S2048x256_S2048x256x1⟩,
       ⟨S2048x256x1, shapeCast S2048x256x1
          (truncf .bf16 (mulf (subf (k0_pay5 (F := Ideal) qb) (k0_pay7 (F := Ideal) zb)) (k0_pay6 (F := Ideal) wb))
            bitsLt_bf16_f32) shapeCasts_S2048x256_S2048x256x1⟩]
      concatenates_S2048x256x1_S2048x256x1_S2048x256x2_d2)
    shapeCasts_S2048x256x2_S2048x512

/-- The weight block at `(c, j)`: the nibble of packed column `j / 2` that column `j` selects, dequantised with
    the zero point and scale of group `j / 128`. -/
theorem weightBlock_apply (qb : Vec Ideal S2048x256 .i32) (wb : Vec Ideal S2048x4 .f32) (zb : Vec Ideal S2048x4 .i32)
    (c : Fin 2048) (j : Fin 512) :
    weightBlock qb wb zb (ix2 c j)
      = dequant (nibble (qb (ix2 c (⟨j.val / 2, by have := j.isLt; omega⟩ : Fin 256))) j.val)
          (zb (ix2 c (⟨j.val / 128, by have := j.isLt; omega⟩ : Fin 4)))
          (wb (ix2 c (⟨j.val / 128, by have := j.isLt; omega⟩ : Fin 4))) := by
  have hp : j.val / 2 < 256 := by have := j.isLt; omega
  have hg : (⟨j.val / 2 / 64, by omega⟩ : Fin 4) = ⟨j.val / 128, by have := j.isLt; omega⟩ :=
    Fin.ext (by show j.val / 2 / 64 = j.val / 128; omega)
  unfold weightBlock
  rw [interleave_apply _ _ c j]
  unfold nibble
  by_cases he : j.val % 2 = 0
  · rw [if_pos he, if_pos he, truncf_apply, lowNibble_apply qb wb zb c ⟨j.val / 2, hp⟩]
    show dequant _ (zb (ix2 c ⟨j.val / 2 / 64, _⟩)) (wb (ix2 c ⟨j.val / 2 / 64, _⟩)) = _
    rw [hg]
  · rw [if_neg he, if_neg he, truncf_apply, highNibble_apply qb wb zb c ⟨j.val / 2, hp⟩]
    show dequant _ (zb (ix2 c ⟨j.val / 2 / 64, _⟩)) (wb (ix2 c ⟨j.val / 2 / 64, _⟩)) = _
    rw [hg]

/-! ### The contraction -/

theorem lhs_tile_0 (i : S2048x2048.Idx) (q : dot_S2048x512_S2048x512_S2048x2048_1_1_0_0_n_n.contr.Idx) :
    (dot_S2048x512_S2048x512_S2048x2048_1_1_0_0_n_n.lhsIdx i q 0).val = (i 0).val := by
  unfold DotDims.lhsIdx
  rw [dif_neg (show ¬(0 : Fin S2048x512.rank) ∈ dot_S2048x512_S2048x512_S2048x2048_1_1_0_0_n_n.lhsBatch by decide), dif_pos (show (0 : Fin S2048x512.rank) ∈ dot_S2048x512_S2048x512_S2048x2048_1_1_0_0_n_n.lhsNonContracting by decide)]
  rfl
theorem lhs_tile_1 (i : S2048x2048.Idx) (q : dot_S2048x512_S2048x512_S2048x2048_1_1_0_0_n_n.contr.Idx) :
    (dot_S2048x512_S2048x512_S2048x2048_1_1_0_0_n_n.lhsIdx i q 1).val = (q ⟨0, by decide⟩).val :=
  dot_S2048x512_S2048x512_S2048x2048_1_1_0_0_n_n.lhsIdx_val_of_single rfl i q
theorem rhs_tile_0 (i : S2048x2048.Idx) (q : dot_S2048x512_S2048x512_S2048x2048_1_1_0_0_n_n.contr.Idx) :
    (dot_S2048x512_S2048x512_S2048x2048_1_1_0_0_n_n.rhsIdx i q 0).val = (i 1).val := by
  unfold DotDims.rhsIdx
  rw [dif_neg (show ¬(0 : Fin S2048x512.rank) ∈ dot_S2048x512_S2048x512_S2048x2048_1_1_0_0_n_n.rhsBatch by decide), dif_pos (show (0 : Fin S2048x512.rank) ∈ dot_S2048x512_S2048x512_S2048x2048_1_1_0_0_n_n.rhsNonContracting by decide)]
  rfl
theorem rhs_tile_1 (i : S2048x2048.Idx) (q : dot_S2048x512_S2048x512_S2048x2048_1_1_0_0_n_n.contr.Idx) :
    (dot_S2048x512_S2048x512_S2048x2048_1_1_0_0_n_n.rhsIdx i q 1).val = (q ⟨0, by decide⟩).val :=
  dot_S2048x512_S2048x512_S2048x2048_1_1_0_0_n_n.rhsIdx_val_of_single rfl i q

/-- The tile's matrix product into the zero block, at `(r, c)`: row `r` of the left block against row `c` of the right
    block, over their 512 columns. -/
theorem tileMatmul_apply (lhs rhs : FVec Ideal S2048x512 .bf16) (r c : Fin 2048) :
    matmul dot_S2048x512_S2048x512_S2048x2048_1_1_0_0_n_n none lhs rhs
        (constant (F := Ideal) S2048x2048 .f32 0x00000000#32) (ix2 r c)
      = ∑ k : Fin 512, lhs (ix2 r k) * rhs (ix2 c k) := by
  simp only [matmul]
  rw [Ideal.matmul_constant_zero_apply, ← Equiv.sum_comp (ValueIdx.contrEquiv1 dot_S2048x512_S2048x512_S2048x2048_1_1_0_0_n_n 512 rfl rfl).symm]
  refine Finset.sum_congr rfl fun k _ => ?_
  have hk := ValueIdx.contrEquiv1_symm_val dot_S2048x512_S2048x512_S2048x2048_1_1_0_0_n_n 512 rfl rfl k
  have el : dot_S2048x512_S2048x512_S2048x2048_1_1_0_0_n_n.lhsIdx (ix2 r c) ((ValueIdx.contrEquiv1 dot_S2048x512_S2048x512_S2048x2048_1_1_0_0_n_n 512 rfl rfl).symm k) = ix2 r k := funext fun a => Fin.ext (by
    match a with
    | ⟨0, _⟩ => exact lhs_tile_0 _ _
    | ⟨1, _⟩ => exact (lhs_tile_1 _ _).trans hk)
  have er : dot_S2048x512_S2048x512_S2048x2048_1_1_0_0_n_n.rhsIdx (ix2 r c) ((ValueIdx.contrEquiv1 dot_S2048x512_S2048x512_S2048x2048_1_1_0_0_n_n 512 rfl rfl).symm k) = ix2 c k := funext fun a => Fin.ext (by
    match a with
    | ⟨0, _⟩ => exact rhs_tile_0 _ _
    | ⟨1, _⟩ => exact (rhs_tile_1 _ _).trans hk)
  rw [el, er]

/-- The accumulating payload is the block it read plus the matrix product of the quantised activations with the
    weight block. -/
theorem accumulate_eq (xb : Vec Ideal S2048x512 .f32) (ab : Vec Ideal S2048x1 .f32) (qb : Vec Ideal S2048x256 .i32)
    (wb : Vec Ideal S2048x4 .f32) (zb : Vec Ideal S2048x4 .i32) (prev : Vec Ideal S2048x2048 .f32) :
    k0_pay1 (F := Ideal) (k0_pay4 xb ab) (k0_pay5 qb) (k0_pay6 wb) (k0_pay7 zb) (k0_pay8 qb wb zb) prev
      = addf (shapeCast S2048x2048 prev shapeCasts_S2048x2048_S2048x2048)
          (matmul dot_S2048x512_S2048x512_S2048x2048_1_1_0_0_n_n none (k0_pay4 (F := Ideal) xb ab) (weightBlock qb wb zb)
            (constant (F := Ideal) S2048x2048 .f32 0x00000000#32)) := rfl

/-- The accumulating store's value at element `(r, c)`: what the block held, plus the tile's contraction. -/
theorem accumulate_apply (xb : Vec Ideal S2048x512 .f32) (ab : Vec Ideal S2048x1 .f32) (qb : Vec Ideal S2048x256 .i32)
    (wb : Vec Ideal S2048x4 .f32) (zb : Vec Ideal S2048x4 .i32) (prev : Vec Ideal S2048x2048 .f32) (r c : Fin 2048) :
    k0_pay1 (F := Ideal) (k0_pay4 xb ab) (k0_pay5 qb) (k0_pay6 wb) (k0_pay7 zb) (k0_pay8 qb wb zb) prev (ix2 r c)
      = prev (ix2 r c) + ∑ j ∈ Finset.range 512, blockTerm xb ab qb wb zb r c j := by
  rw [accumulate_eq, shapeCast_self prev shapeCasts_S2048x2048_S2048x2048, addf_apply,
    tileMatmul_apply (k0_pay4 (F := Ideal) xb ab) (weightBlock qb wb zb) r c,
    ← Fin.sum_univ_eq_sum_range (fun j => blockTerm xb ab qb wb zb r c j) 512]
  refine congrArg (prev (ix2 r c) + ·) (Finset.sum_congr rfl fun k _ => ?_)
  rw [quantAct_apply xb ab r k, weightBlock_apply qb wb zb c k]
  unfold blockTerm
  rw [co_of_lt (by decide) k k.val rfl,
    co_of_lt (by decide) (⟨k.val / 2, by have := k.isLt; omega⟩ : Fin 256) (k.val / 2) rfl,
    co_of_lt (by decide) (⟨k.val / 128, by have := k.isLt; omega⟩ : Fin 4) (k.val / 128) rfl]

/-- The closing store's value at element `(r, c)`: the accumulated block plus the bias of column `c`. -/
theorem addBias_apply (acc : Vec Ideal S2048x2048 .f32) (bb : Vec Ideal S2048 .f32) (r c : Fin 2048) :
    k0_pay2 (F := Ideal) acc bb (ix2 r c) = acc (ix2 r c) + bb (ix1 c) := by
  unfold k0_pay2
  rw [shapeCast_self acc shapeCasts_S2048x2048_S2048x2048, addf_apply,
    broadcastTo_1b_ab_apply _ broadcasts_S1x2048_S2048x2048 r c,
    shapeCast_a_1a_apply bb shapeCasts_S2048_S1x2048 (0 : Fin 1) c]

/-- The resetting store's value: zero everywhere. -/
theorem zeroBlock_apply (r c : Fin 2048) : k0_pay3 (F := Ideal) (ix2 r c) = 0 := by
  unfold k0_pay3
  exact Ideal.ofBits_zero_f32

end Cert.QuantLinear.Tile

end
-- ==== Proof.KPieces.lean ====
/-
  What each control case of the kernel body leaves in the output block.

  The body runs at every point `(i, j, k)` of the grid.  Its output block `(i, j)` stays in place while `k` runs over
  the eight tiles of the contraction.  On the first tile (`k = 0`) the body first stores zeros, reads them back, and
  stores the zeros plus the tile's product; on a middle tile it stores what the block held plus the tile's product; on the
  last tile (`k = 7`) it does the same and then stores that sum plus the bias row.  The tile's product uses the four
  group columns `4k … 4k + 3` of the scale and zero-point blocks, which the body loads through a rectangle whose
  column offset is computed from `k`.
-/
import proofs.«430562_j68324339745160_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.QuantLinear.Pieces

open Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- The four group columns the tile of point `i` meets, out of a [2048, 32] block of per-group values. -/
abbrev groupCols {e : EltTy} (x : Vec F S2048x32 e) (i : grid0.Coords) : Vec F S2048x4 e :=
  View.ld x (Rect.unit (s := S2048x32) (k0_off1 i) S2048x4.size (k0_off1_inb i))

/-- What the block holds after the accumulating store at point `i`: `prev` plus the tile's product. -/
def tileAcc (i : grid0.Coords) (x0 : Vec F S2048x512 .f32) (x1 : Vec F S2048x1 .f32) (x2 : Vec F S2048x256 .i32)
    (x3 : Vec F S2048x32 .f32) (x4 : Vec F S2048x32 .i32) (prev : Vec F S2048x2048 .f32) : Vec F S2048x2048 .f32 :=
  k0_pay1 (k0_pay4 x0 x1) (k0_pay5 x2) (k0_pay6 (groupCols x3 i)) (k0_pay7 (groupCols x4 i))
    (k0_pay8 x2 (groupCols x3 i) (groupCols x4 i)) prev

/-- A middle tile: the block's previous contents plus the tile's product. -/
theorem out_B (c : Dev nD) (i : grid0.Coords) (arg3 : Memref sig .tc .vmem S2048x512 .f32) (harg3 : arg3.IsWhole) (arg4 : Memref sig .tc .vmem S2048x1 .f32) (harg4 : arg4.IsWhole) (arg5 : Memref sig .tc .vmem S2048x256 .i32) (harg5 : arg5.IsWhole) (arg6 : Memref sig .tc .vmem S2048x32 .f32) (harg6 : arg6.IsWhole) (arg7 : Memref sig .tc .vmem S2048x32 .i32) (harg7 : arg7.IsWhole) (arg8 : Memref sig .tc .vmem S2048 .f32) (harg8 : arg8.IsWhole) (arg9 : Memref sig .tc .vmem S2048x2048 .f32) (harg9 : arg9.IsWhole) (hc0 : ¬cond0_0 i) (hc1 : ¬cond0_1 i)
    (x0 : Vec F S2048x512 .f32) (x1 : Vec F S2048x1 .f32) (x2 : Vec F S2048x256 .i32) (x3 : Vec F S2048x32 .f32) (x4 : Vec F S2048x32 .i32) (x5 : Vec F S2048 .f32) (xo6 : Vec F S2048x2048 .f32) :
    out0_B_6 c i arg3 harg3 arg4 harg4 arg5 harg5 arg6 harg6 arg7 harg7 arg8 harg8 arg9 harg9 hc0 hc1 x0 x1 x2 x3 x4 x5 xo6 = tileAcc i x0 x1 x2 x3 x4 xo6 := by
  unfold out0_B_6
  rw [View.read_writes_eq_canon _ _ _ (cover0_B_6 c i arg3 harg3 arg4 harg4 arg5 harg5 arg6 harg6 arg7 harg7 arg8 harg8 arg9 harg9 hc0 hc1 x0 x1 x2 x3 x4 x5 xo6)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, View.readCov_unit_zero (S := S2048x2048) _ hz, View.ld_unit_zero (S := S2048x2048) hz, View.ld_unit_zero (S := S2048x512) hz, View.ld_unit_zero (S := S2048x1) hz, View.ld_unit_zero (S := S2048x256) hz, View.ld_unit_zero (S := S2048) hz1]
  rfl

/-- The first tile: the zero block plus the tile's product. -/
theorem out_A (c : Dev nD) (i : grid0.Coords) (arg3 : Memref sig .tc .vmem S2048x512 .f32) (harg3 : arg3.IsWhole) (arg4 : Memref sig .tc .vmem S2048x1 .f32) (harg4 : arg4.IsWhole) (arg5 : Memref sig .tc .vmem S2048x256 .i32) (harg5 : arg5.IsWhole) (arg6 : Memref sig .tc .vmem S2048x32 .f32) (harg6 : arg6.IsWhole) (arg7 : Memref sig .tc .vmem S2048x32 .i32) (harg7 : arg7.IsWhole) (arg8 : Memref sig .tc .vmem S2048 .f32) (harg8 : arg8.IsWhole) (arg9 : Memref sig .tc .vmem S2048x2048 .f32) (harg9 : arg9.IsWhole) (hc0 : cond0_0 i) (hc1 : ¬cond0_1 i)
    (x0 : Vec F S2048x512 .f32) (x1 : Vec F S2048x1 .f32) (x2 : Vec F S2048x256 .i32) (x3 : Vec F S2048x32 .f32) (x4 : Vec F S2048x32 .i32) (x5 : Vec F S2048 .f32) :
    out0_A_6 c i arg3 harg3 arg4 harg4 arg5 harg5 arg6 harg6 arg7 harg7 arg8 harg8 arg9 harg9 hc0 hc1 x0 x1 x2 x3 x4 x5 = tileAcc i x0 x1 x2 x3 x4 k0_pay3 := by
  unfold out0_A_6
  rw [View.read_writes_eq_canon _ _ _ (cover0_A_6 c i arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S2048x2048) hz]
  simp only [View.readAt_eq_ld, harg3.read_unread, harg4.read_unread, harg5.read_unread, harg6.read_unread, harg7.read_unread, harg8.read_unread, harg9.read_unread, View.readCov_unit_zero (S := S2048x2048) _ hz, View.ld_unit_zero (S := S2048x2048) hz, View.ld_unit_zero (S := S2048x512) hz, View.ld_unit_zero (S := S2048x1) hz, View.ld_unit_zero (S := S2048x256) hz, View.ld_unit_zero (S := S2048) hz1]
  rfl

/-- The last tile: the previous contents plus the tile's product, plus the bias row. -/
theorem out_C (c : Dev nD) (i : grid0.Coords) (arg3 : Memref sig .tc .vmem S2048x512 .f32) (harg3 : arg3.IsWhole) (arg4 : Memref sig .tc .vmem S2048x1 .f32) (harg4 : arg4.IsWhole) (arg5 : Memref sig .tc .vmem S2048x256 .i32) (harg5 : arg5.IsWhole) (arg6 : Memref sig .tc .vmem S2048x32 .f32) (harg6 : arg6.IsWhole) (arg7 : Memref sig .tc .vmem S2048x32 .i32) (harg7 : arg7.IsWhole) (arg8 : Memref sig .tc .vmem S2048 .f32) (harg8 : arg8.IsWhole) (arg9 : Memref sig .tc .vmem S2048x2048 .f32) (harg9 : arg9.IsWhole) (hc0 : ¬cond0_0 i) (hc1 : cond0_1 i)
    (x0 : Vec F S2048x512 .f32) (x1 : Vec F S2048x1 .f32) (x2 : Vec F S2048x256 .i32) (x3 : Vec F S2048x32 .f32) (x4 : Vec F S2048x32 .i32) (x5 : Vec F S2048 .f32) (xo6 : Vec F S2048x2048 .f32) :
    out0_C_6 c i arg3 harg3 arg4 harg4 arg5 harg5 arg6 harg6 arg7 harg7 arg8 harg8 arg9 harg9 hc0 hc1 x0 x1 x2 x3 x4 x5 xo6 = k0_pay2 (tileAcc i x0 x1 x2 x3 x4 xo6) x5 := by
  unfold out0_C_6
  rw [View.read_writes_eq_canon _ _ _ (cover0_C_6 c i arg3 harg3 arg4 harg4 arg5 harg5 arg6 harg6 arg7 harg7 arg8 harg8 arg9 harg9 hc0 hc1 x0 x1 x2 x3 x4 x5 xo6)]
  unfold kernelRun0_C
  dsimp only
  sl_unfold_words
  rw [View.canon_cons_unit_zero (S := S2048x2048) hz]
  simp only [View.readAt_eq_ld, harg3.read_unread, harg4.read_unread, harg5.read_unread, harg6.read_unread, harg7.read_unread, harg8.read_unread, harg9.read_unread, View.readCov_unit_zero (S := S2048x2048) _ hz, View.ld_unit_zero (S := S2048x2048) hz, View.ld_unit_zero (S := S2048x512) hz, View.ld_unit_zero (S := S2048x1) hz, View.ld_unit_zero (S := S2048x256) hz, View.ld_unit_zero (S := S2048) hz1]
  rfl

end Cert.QuantLinear.Pieces

end
-- ==== Proof.KBlocks.lean ====
/-
  The blocks the kernel body sees at a grid point, as entries of the argument arrays.

  Point number `t` of the 4 × 2 × 8 grid is `(i, j, k) = (t / 16, t / 8 % 2, t % 8)`.  The activations are first
  flattened from [4, 2048, 4096] to [8192, 4096] rows and the token scales broadcast to [4, 2048, 1] and flattened to
  [8192, 1], so flat row `R` is token `(R / 2048, R % 2048)` and its scale is the scale of token position
  `R % 2048`.  At point `t` the activation block is rows `2048 i …`, columns `512 k …`; the packed-code block is
  rows `2048 j …`, packed columns `256 k …`; the scale and zero-point blocks are rows `2048 j …`, all 32 groups, of
  which the body takes the four groups `4 k …`; the bias block is entries `2048 j …`.  Hence element `(r, c)` of the
  tile's contraction at point `t` is the specification's tile sum at flat row `2048 i + r`, feature `2048 j + c`,
  tile `k`.
-/
import proofs.«430562_j68324339745160_1_alg».proof.Proof.Spec
import proofs.«430562_j68324339745160_1_alg».proof.Proof.KTile
import proofs.«430562_j68324339745160_1_alg».proof.Proof.KPieces
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx

namespace Cert.QuantLinear.Blocks

open Cert.KernelIdeal Cert.KernelIdeal.Gen Cert.QuantLinear Cert.QuantLinear.Pieces Cert.QuantLinear.Tile

variable (m : (ℓ : Loc nD τ sig) → Buf (Elt Ideal) ℓ)

/-! ### Names of literal type for the arrays and the blocks -/

abbrev argX (c : Dev nD) : Vec Ideal S4x2048x4096 .f32 := m ((c : Thread nD τ).loc main_arg0)
abbrev argQ (c : Dev nD) : Vec Ideal S4096x2048 .i32 := m ((c : Thread nD τ).loc main_arg1)
abbrev argA (c : Dev nD) : Vec Ideal S1x2048x1 .f32 := m ((c : Thread nD τ).loc main_arg2)
abbrev argW (c : Dev nD) : Vec Ideal S4096x32 .f32 := m ((c : Thread nD τ).loc main_arg3)
abbrev argZ (c : Dev nD) : Vec Ideal S4096x32 .i32 := m ((c : Thread nD τ).loc main_arg4)
abbrev argB (c : Dev nD) : Vec Ideal S4096 .f32 := m ((c : Thread nD τ).loc main_arg5)

abbrev flatX (c : Dev nD) : Vec Ideal S8192x4096 .f32 := V m c main_v0
abbrev flatA (c : Dev nD) : Vec Ideal S8192x1 .f32 := V m c main_v2

abbrev xblk (c : Dev nD) (t : Fin cfg0.N) : Vec Ideal S2048x512 .f32 := iblk m c 0 t
abbrev ablk (c : Dev nD) (t : Fin cfg0.N) : Vec Ideal S2048x1 .f32 := iblk m c 1 t
abbrev qblk (c : Dev nD) (t : Fin cfg0.N) : Vec Ideal S2048x256 .i32 := iblk m c 2 t
abbrev wblk (c : Dev nD) (t : Fin cfg0.N) : Vec Ideal S2048x32 .f32 := iblk m c 3 t
abbrev zblk (c : Dev nD) (t : Fin cfg0.N) : Vec Ideal S2048x32 .i32 := iblk m c 4 t
abbrev bblk (c : Dev nD) (t : Fin cfg0.N) : Vec Ideal S2048 .f32 := iblk m c 5 t

/-! ### The grid point's coordinates, decided once over the 64 points -/

theorem idx_facts : ∀ t : Fin cfg0.N,
    win0_0.index t (0 : Fin 2) = t.val / 16 ∧ win0_0.index t (1 : Fin 2) = t.val % 8
    ∧ win0_1.index t (0 : Fin 2) = t.val / 16 ∧ win0_1.index t (1 : Fin 2) = 0
    ∧ win0_2.index t (0 : Fin 2) = t.val / 8 % 2 ∧ win0_2.index t (1 : Fin 2) = t.val % 8
    ∧ win0_3.index t (0 : Fin 2) = t.val / 8 % 2 ∧ win0_3.index t (1 : Fin 2) = 0
    ∧ win0_4.index t (0 : Fin 2) = t.val / 8 % 2 ∧ win0_4.index t (1 : Fin 2) = 0
    ∧ win0_5.index t (0 : Fin 1) = t.val / 8 % 2
    ∧ win0_6.index t (0 : Fin 2) = t.val / 16 ∧ win0_6.index t (1 : Fin 2) = t.val / 8 % 2
    ∧ ((grid0.coords t) 2).val = t.val % 8 :=
  (by decide +kernel : ∀ t : Fin grid0.N, _)

theorem lt64 (t : Fin cfg0.N) : t.val < 64 := lt_of_lt_of_eq t.isLt N_0

/-! ### The flattened arrays the region finds -/

theorem flatX_eq (c : Dev nD) :
    flatX m c = shapeCast S8192x4096 (argX m c) shapeCasts_S4x2048x4096_S8192x4096 := by
  show StableHlo.after hostOps0 (fun b => m (c, b)) (Proc.devRef .tc main_v0) = _
  after_results
  rfl

theorem flatA_eq (c : Dev nD) :
    flatA m c = shapeCast S8192x1
      (broadcastInDim S4x2048x1 ![0, 1, 2] bcast_S1x2048x1_S4x2048x1_0_1_2 (argA m c)) shapeCasts_S4x2048x1_S8192x1 := by
  show StableHlo.after hostOps0 (fun b => m (c, b)) (Proc.devRef .tc main_v2) = _
  after_results
  rfl

/-- Flat row `R` of the activations is token `(R / 2048, R % 2048)`. -/
theorem flatX_at (c : Dev nD) (R i : Nat) (hR : R < 8192) (hi : i < 4096) :
    flatX m c (ix2 (co 8192 (by decide) R) (co 4096 (by decide) i))
      = argX m c (ix3 (co 4 (by decide) (R / 2048)) (co 2048 (by decide) R) (co 4096 (by decide) i)) := by
  rw [flatX_eq]
  refine shapeCast_apply _ _ _ _ ?_
  rw [Shape.rowMajor_val_three, Shape.rowMajor_val_two]
  show ((R / 2048 % 4) * 2048 + R % 2048) * 4096 + i % 4096 = (R % 8192) * 4096 + i % 4096
  omega

/-- Flat row `R`'s scale is the scale of token position `R % 2048`. -/
theorem flatA_at (c : Dev nD) (R : Nat) (hR : R < 8192) :
    flatA m c (ix2 (co 8192 (by decide) R) (0 : Fin 1))
      = argA m c (ix3 (0 : Fin 1) (co 2048 (by decide) R) (0 : Fin 1)) := by
  rw [flatA_eq]
  refine (shapeCast_apply _ _ _ (ix3 (co 4 (by decide) (R / 2048)) (co 2048 (by decide) R) (0 : Fin 1)) ?_).trans ?_
  · rw [Shape.rowMajor_val_three, Shape.rowMajor_val_two]
    show ((R / 2048 % 4) * 2048 + R % 2048) * 1 + 0 = (R % 8192) * 1 + 0
    omega
  · refine broadcastInDim_apply _ _ _ _ _ (fun a => ?_)
    match a with
    | ⟨0, _⟩ => show 0 = if (1 : Nat) = 1 then 0 else _; rw [if_pos rfl]
    | ⟨1, _⟩ => show R % 2048 = if (2048 : Nat) = 1 then 0 else R % 2048; rw [if_neg (by decide)]
    | ⟨2, _⟩ => show 0 = if (1 : Nat) = 1 then 0 else _; rw [if_pos rfl]

/-! ### Each block at an element -/

theorem xblk_at (c : Dev nD) (t : Fin cfg0.N) (r : Fin 2048) (j : Nat) (hj : j < 512) :
    xblk m c t (ix2 r (co 512 (by decide) j))
      = argX m c (ix3 (co 4 (by decide) ((t.val / 16 * 2048 + r.val) / 2048)) (co 2048 (by decide) (t.val / 16 * 2048 + r.val))
          (co 4096 (by decide) (t.val % 8 * 512 + j))) := by
  have hN := lt64 t
  have hr := r.isLt
  obtain ⟨e0, e1, -⟩ := idx_facts t
  refine Eq.trans ?_ (flatX_at m c (t.val / 16 * 2048 + r.val) (t.val % 8 * 512 + j) (by omega) (by omega))
  show V m c main_v0 (((cfg0.win 0).blk t).view.emb (ix2 r (co 512 (by decide) j))) = V m c main_v0 _
  refine congrArg (V m c main_v0) (funext fun a => Fin.ext ?_)
  match a with
  | ⟨0, _⟩ => show win0_0.index t (0 : Fin 2) * 2048 + 1 * r.val = (t.val / 16 * 2048 + r.val) % 8192; rw [e0]; omega
  | ⟨1, _⟩ => show win0_0.index t (1 : Fin 2) * 512 + 1 * (j % 512) = (t.val % 8 * 512 + j) % 4096; rw [e1]; omega

theorem ablk_at (c : Dev nD) (t : Fin cfg0.N) (r : Fin 2048) :
    ablk m c t (ix2 r (0 : Fin 1))
      = argA m c (ix3 (0 : Fin 1) (co 2048 (by decide) (t.val / 16 * 2048 + r.val)) (0 : Fin 1)) := by
  have hN := lt64 t
  have hr := r.isLt
  obtain ⟨-, -, e0, e1, -⟩ := idx_facts t
  refine Eq.trans ?_ (flatA_at m c (t.val / 16 * 2048 + r.val) (by omega))
  show V m c main_v2 (((cfg0.win 1).blk t).view.emb (ix2 r (0 : Fin 1))) = V m c main_v2 _
  refine congrArg (V m c main_v2) (funext fun a => Fin.ext ?_)
  match a with
  | ⟨0, _⟩ => show win0_1.index t (0 : Fin 2) * 2048 + 1 * r.val = (t.val / 16 * 2048 + r.val) % 8192; rw [e0]; omega
  | ⟨1, _⟩ => show win0_1.index t (1 : Fin 2) * 1 + 1 * 0 = 0; rw [e1]

theorem qblk_at (c : Dev nD) (t : Fin cfg0.N) (cc : Fin 2048) (p : Nat) (hp : p < 256) :
    qblk m c t (ix2 cc (co 256 (by decide) p))
      = argQ m c (ix2 (co 4096 (by decide) (t.val / 8 % 2 * 2048 + cc.val)) (co 2048 (by decide) (t.val % 8 * 256 + p))) := by
  have hN := lt64 t
  have hc := cc.isLt
  obtain ⟨-, -, -, -, e0, e1, -⟩ := idx_facts t
  show V m c main_arg1 (((cfg0.win 2).blk t).view.emb (ix2 cc (co 256 (by decide) p))) = _
  rw [V_main_arg1]
  refine congrArg (m ((c : Thread nD τ).loc main_arg1)) (funext fun a => Fin.ext ?_)
  match a with
  | ⟨0, _⟩ => show win0_2.index t (0 : Fin 2) * 2048 + 1 * cc.val = (t.val / 8 % 2 * 2048 + cc.val) % 4096; rw [e0]; omega
  | ⟨1, _⟩ => show win0_2.index t (1 : Fin 2) * 256 + 1 * (p % 256) = (t.val % 8 * 256 + p) % 2048; rw [e1]; omega

theorem wblk_at (c : Dev nD) (t : Fin cfg0.N) (cc : Fin 2048) (g : Nat) (hg : g < 32) :
    wblk m c t (ix2 cc (co 32 (by decide) g))
      = argW m c (ix2 (co 4096 (by decide) (t.val / 8 % 2 * 2048 + cc.val)) (co 32 (by decide) g)) := by
  have hN := lt64 t
  have hc := cc.isLt
  obtain ⟨-, -, -, -, -, -, e0, e1, -⟩ := idx_facts t
  show V m c main_arg3 (((cfg0.win 3).blk t).view.emb (ix2 cc (co 32 (by decide) g))) = _
  rw [V_main_arg3]
  refine congrArg (m ((c : Thread nD τ).loc main_arg3)) (funext fun a => Fin.ext ?_)
  match a with
  | ⟨0, _⟩ => show win0_3.index t (0 : Fin 2) * 2048 + 1 * cc.val = (t.val / 8 % 2 * 2048 + cc.val) % 4096; rw [e0]; omega
  | ⟨1, _⟩ => show win0_3.index t (1 : Fin 2) * 32 + 1 * (g % 32) = g % 32; rw [e1]; omega

theorem zblk_at (c : Dev nD) (t : Fin cfg0.N) (cc : Fin 2048) (g : Nat) (hg : g < 32) :
    zblk m c t (ix2 cc (co 32 (by decide) g))
      = argZ m c (ix2 (co 4096 (by decide) (t.val / 8 % 2 * 2048 + cc.val)) (co 32 (by decide) g)) := by
  have hN := lt64 t
  have hc := cc.isLt
  obtain ⟨-, -, -, -, -, -, -, -, e0, e1, -⟩ := idx_facts t
  show V m c main_arg4 (((cfg0.win 4).blk t).view.emb (ix2 cc (co 32 (by decide) g))) = _
  rw [V_main_arg4]
  refine congrArg (m ((c : Thread nD τ).loc main_arg4)) (funext fun a => Fin.ext ?_)
  match a with
  | ⟨0, _⟩ => show win0_4.index t (0 : Fin 2) * 2048 + 1 * cc.val = (t.val / 8 % 2 * 2048 + cc.val) % 4096; rw [e0]; omega
  | ⟨1, _⟩ => show win0_4.index t (1 : Fin 2) * 32 + 1 * (g % 32) = g % 32; rw [e1]; omega

theorem bblk_at (c : Dev nD) (t : Fin cfg0.N) (cc : Fin 2048) :
    bblk m c t (ix1 cc) = argB m c (ix1 (co 4096 (by decide) (t.val / 8 % 2 * 2048 + cc.val))) := by
  have hN := lt64 t
  have hc := cc.isLt
  obtain ⟨-, -, -, -, -, -, -, -, -, -, e0, -⟩ := idx_facts t
  show V m c main_arg5 (((cfg0.win 5).blk t).view.emb (ix1 cc)) = _
  rw [V_main_arg5]
  refine congrArg (m ((c : Thread nD τ).loc main_arg5)) (funext fun a => Fin.ext ?_)
  match a with
  | ⟨0, _⟩ => show win0_5.index t (0 : Fin 1) * 2048 + 1 * cc.val = (t.val / 8 % 2 * 2048 + cc.val) % 4096; rw [e0]; omega

/-- The tile's four group columns are the groups `4 k … 4 k + 3` of the block. -/
theorem groupCols_at {e : EltTy} (x : Vec Ideal S2048x32 e) (t : Fin cfg0.N) (cc : Fin 2048) (g : Nat) (hg : g < 4) :
    groupCols x (grid0.coords t) (ix2 cc (co 4 (by decide) g)) = x (ix2 cc (co 32 (by decide) (4 * (t.val % 8) + g))) := by
  have hN := lt64 t
  obtain ⟨-, -, -, -, -, -, -, -, -, -, -, -, -, ek⟩ := idx_facts t
  show x ((Rect.unit (s := S2048x32) (k0_off1 (grid0.coords t)) S2048x4.size (k0_off1_inb (grid0.coords t))).emb
    (ix2 cc (co 4 (by decide) g))) = _
  refine congrArg x (funext fun a => Fin.ext ?_)
  match a with
  | ⟨0, _⟩ =>
    show k0_off1 (grid0.coords t) 0 + 1 * cc.val = cc.val
    rw [k0_off1_eq]; show 0 + 1 * cc.val = cc.val; omega
  | ⟨1, _⟩ =>
    show k0_off1 (grid0.coords t) 1 + 1 * (g % 4) = (4 * (t.val % 8) + g) % 32
    rw [k0_off1_eq]; show 4 * ((grid0.coords t) 2).val + 1 * (g % 4) = (4 * (t.val % 8) + g) % 32
    rw [ek]; omega

end Cert.QuantLinear.Blocks

end
-- ==== Proof.KPoint.lean ====
/-
  The output block across a run of eight tiles.

  At point `t = (i, j, k)` the tile's contraction, read at element `(r, c)` of the output block, is the
  specification's tile sum for flat row `2048 i + r`, feature `2048 j + c` and tile `k`: every block entry is the
  array entry the specification names (column `512 k + l` of the activations, packed column `256 k + l / 2`, group
  `4 k + l / 128`), and the nibble chosen depends only on the parity of the column, which the tile offset `512 k`
  does not change.  So by induction on the point the block holds, after tile `k < 7`, the tiles `0 … k` accumulated
  (the first tile starts from zero), and after the last tile all eight tiles plus the bias: the layer's output.
-/
import proofs.«430562_j68324339745160_1_alg».proof.Proof.KBlocks

set_option maxRecDepth 16384

noncomputable section

open Idealize.ShloMosaic Idealize.ShloMosaic.TcCoe Idealize.SL.Sem Idealize.ShloMosaic.ValueIdx

namespace Cert.QuantLinear.Point

open Cert.KernelIdeal Cert.KernelIdeal.Gen Cert.QuantLinear Cert.QuantLinear.Pieces Cert.QuantLinear.Tile
  Cert.QuantLinear.Blocks

variable (m : (ℓ : Loc nD τ sig) → Buf (Elt Ideal) ℓ)

/-- The nibble taken depends only on the column's parity. -/
theorem nibble_congr (q : BitVec 32) {e e' : Nat} (h : e % 2 = e' % 2) : nibble q e = nibble q e' := by
  unfold nibble; rw [h]

/-- One product of the tile's contraction at point `t` is the specification's product at column `512 k + l`. -/
theorem blockTerm_at (c : Dev nD) (t : Fin cfg0.N) (r cc : Fin 2048) (l : Nat) (hl : l < 512) :
    blockTerm (xblk m c t) (ablk m c t) (qblk m c t) (groupCols (wblk m c t) (grid0.coords t))
        (groupCols (zblk m c t) (grid0.coords t)) r cc l
      = term (argX m c) (argA m c) (argQ m c) (argW m c) (argZ m c) (t.val / 16 * 2048 + r.val) (t.val / 8 % 2 * 2048 + cc.val) (t.val % 8 * 512 + l) := by
  have hN := lt64 t
  unfold blockTerm term act weight
  rw [xblk_at m c t r l hl, ablk_at m c t r, qblk_at m c t cc (l / 2) (by omega),
    groupCols_at (wblk m c t) t cc (l / 128) (by omega), groupCols_at (zblk m c t) t cc (l / 128) (by omega),
    wblk_at m c t cc (4 * (t.val % 8) + l / 128) (by omega), zblk_at m c t cc (4 * (t.val % 8) + l / 128) (by omega),
    nibble_congr _ (show l % 2 = (t.val % 8 * 512 + l) % 2 by omega),
    show t.val % 8 * 256 + l / 2 = (t.val % 8 * 512 + l) / 2 by omega,
    show 4 * (t.val % 8) + l / 128 = (t.val % 8 * 512 + l) / 128 by omega]

/-- The accumulating store at point `t`, at element `(r, c)`: what the block held plus the specification's tile sum. -/
theorem tileAcc_at (c : Dev nD) (t : Fin cfg0.N) (prev : Vec Ideal S2048x2048 .f32) (r cc : Fin 2048) :
    tileAcc (grid0.coords t) (xblk m c t) (ablk m c t) (qblk m c t) (wblk m c t) (zblk m c t) prev (ix2 r cc)
      = prev (ix2 r cc)
        + tileSum (argX m c) (argA m c) (argQ m c) (argW m c) (argZ m c) (t.val / 16 * 2048 + r.val) (t.val / 8 % 2 * 2048 + cc.val) (t.val % 8) := by
  unfold tileAcc
  refine (accumulate_apply _ _ _ _ _ prev r cc).trans ?_
  refine congrArg (prev (ix2 r cc) + ·) ?_
  unfold tileSum
  exact Finset.sum_congr rfl fun l hl => blockTerm_at m c t r cc l (Finset.mem_range.mp hl)

/-- What the output block holds after point `n` of a run's first seven tiles: tiles `0 … n % 8` accumulated. -/
theorem acc_inv (c : Dev nD) : ∀ (n : Nat) (h : n < cfg0.N), n % 8 ≠ 7 → ∀ r cc : Fin 2048,
    outsAt0 m c n h (ix2 r cc)
      = accSum (argX m c) (argA m c) (argQ m c) (argW m c) (argZ m c) (n / 16 * 2048 + r.val) (n / 8 % 2 * 2048 + cc.val) (n % 8) := by
  have first : ∀ (n : Nat) (h : n < cfg0.N), n % 8 = 0 → ∀ r cc : Fin 2048,
      outsAt0 m c n h (ix2 r cc)
        = accSum (argX m c) (argA m c) (argQ m c) (argW m c) (argZ m c) (n / 16 * 2048 + r.val) (n / 8 % 2 * 2048 + cc.val) (n % 8) := by
    intro n h h0 r cc
    have h1 : ¬(⟨n, h⟩ : Fin cfg0.N).val % 8 = 7 := by dsimp only; omega
    have key := (outsAt0_A m c ⟨n, h⟩ h0 h1).trans (out_A ..)
    refine (congrFun key (ix2 r cc)).trans ?_
    refine (tileAcc_at m c ⟨n, h⟩ _ r cc).trans ?_
    rw [zeroBlock_apply, zero_add]
    dsimp only
    rw [h0, accSum_zero]
  intro n
  induction n with
  | zero => intro h _ r cc; exact first 0 h rfl r cc
  | succ n ih =>
    intro h h7 r cc
    by_cases h0 : (n + 1) % 8 = 0
    · exact first (n + 1) h h0 r cc
    · have hB0 : ¬(⟨n + 1, h⟩ : Fin cfg0.N).val % 8 = 0 := by dsimp only; exact h0
      have hB1 : ¬(⟨n + 1, h⟩ : Fin cfg0.N).val % 8 = 7 := by dsimp only; exact h7
      have key := (outsAt0_B m c ⟨n + 1, h⟩ hB0 hB1).trans (out_B ..)
      refine (congrFun key (ix2 r cc)).trans ?_
      refine (tileAcc_at m c ⟨n + 1, h⟩ _ r cc).trans ?_
      dsimp only
      have ih' := ih (Nat.lt_of_succ_lt h) (by omega) r cc
      have e1 : (n + 1) / 16 = n / 16 := by omega
      have e2 : (n + 1) / 8 % 2 = n / 8 % 2 := by omega
      have e3 : (n + 1) % 8 = n % 8 + 1 := by omega
      rw [e1, e2, e3, accSum_succ]
      exact congrArg (· + tileSum (argX m c) (argA m c) (argQ m c) (argW m c) (argZ m c) (n / 16 * 2048 + r.val) (n / 8 % 2 * 2048 + cc.val) (n % 8 + 1)) ih'

/-- What the output block holds after a run's last tile: the layer's output for its rows and features. -/
theorem last_inv (c : Dev nD) (n : Nat) (h : n < cfg0.N) (h7 : n % 8 = 7) (r cc : Fin 2048) :
    outsAt0 m c n h (ix2 r cc)
      = outFlat (argX m c) (argA m c) (argQ m c) (argW m c) (argZ m c) (argB m c) (n / 16 * 2048 + r.val) (n / 8 % 2 * 2048 + cc.val) := by
  obtain ⟨n, rfl⟩ : ∃ n', n = n' + 1 := ⟨n - 1, by omega⟩
  have hC0 : ¬(⟨n + 1, h⟩ : Fin cfg0.N).val % 8 = 0 := by dsimp only; omega
  have hC1 : (⟨n + 1, h⟩ : Fin cfg0.N).val % 8 = 7 := by dsimp only; exact h7
  have key := (outsAt0_C m c ⟨n + 1, h⟩ hC0 hC1).trans (out_C ..)
  refine (congrFun key (ix2 r cc)).trans ?_
  refine (addBias_apply _ _ r cc).trans ?_
  rw [tileAcc_at m c ⟨n + 1, h⟩ _ r cc, show iblk m c 5 ⟨n + 1, h⟩ (ix1 cc) = _ from bblk_at m c ⟨n + 1, h⟩ cc]
  dsimp only
  have ih := acc_inv m c n (Nat.lt_of_succ_lt h) (by omega) r cc
  have e1 : (n + 1) / 16 = n / 16 := by omega
  have e2 : (n + 1) / 8 % 2 = n / 8 % 2 := by omega
  have e6 : n % 8 = 6 := by omega
  rw [e1, e2, h7, ← accSum_last_add_bias, show (7 : Nat) = 6 + 1 from rfl, accSum_succ]
  rw [e6] at ih
  exact congrArg (fun v => v + tileSum (argX m c) (argA m c) (argQ m c) (argW m c) (argZ m c) (n / 16 * 2048 + r.val) (n / 8 % 2 * 2048 + cc.val) (6 + 1)
    + argB m c (ix1 (co 4096 (by decide) (n / 8 % 2 * 2048 + cc.val)))) ih

end Cert.QuantLinear.Point

end
-- ==== Proof.KFinal.lean ====
/-
  The result array of the kernel program.

  The output block `(i, j)` is written back once, after the last tile of its run (the points with `t % 8 = 7`), and
  holds the layer's output for rows `2048 i …` and features `2048 j …`; the 4 × 2 blocks tile the [8192, 4096] array,
  the block covering entry `(R, o)` being the one written at point `16 (R / 2048) + 8 (o / 2048) + 7`.  So the array
  ends holding the layer's output at every flat row and feature, and the reshape to [4, 2048, 4096] after the region
  reads flat row `2048 b + s` at `(b, s)`.
-/
import proofs.«430562_j68324339745160_1_alg».proof.Proof.KPoint

set_option maxRecDepth 16384

noncomputable section

open Idealize.ShloMosaic Idealize.ShloMosaic.TcCoe Idealize.SL.Sem Idealize.ShloMosaic.ValueIdx
open Idealize.ShloMosaic.Pipeline (Dat)

namespace Cert.QuantLinear.Final

open Cert.KernelIdeal Cert.KernelIdeal.Gen Cert.QuantLinear Cert.QuantLinear.Pieces Cert.QuantLinear.Tile
  Cert.QuantLinear.Blocks Cert.QuantLinear.Point

variable (m : (ℓ : Loc nD τ sig) → Buf (Elt Ideal) ℓ) (ρ : Dev nD → PrngReg)

/-- The layer's output over flat rows. -/
def flatOutFn (c : Dev nD) : Vec Ideal S8192x4096 .f32 :=
  fun i => outFlat (argX m c) (argA m c) (argQ m c) (argW m c) (argZ m c) (argB m c) (i 0).val (i 1).val

/-- The same as contents of the region's result array. -/
abbrev flatOut (c : Dev nD) : Buf (Elt Ideal) ((c : Thread nD τ).loc main_v3) := flatOutFn m c

/-- What a write-back writes is the corresponding block of the layer's output. -/
theorem flushed_eq (c : Dev nD) (t : Fin cfg0.N) (hf : (cfg0.win 6).flush t = true) :
    (dats m 0 c).flushed 6 t = ((cfg0.win 6).blk t).view.read (Elt Ideal) (flatOut m c) := by
  have hN := lt64 t
  have h7 : t.val % 8 = 7 := (flush0_6 t).mp hf
  obtain ⟨-, -, -, -, -, -, -, -, -, -, -, e0, e1, -⟩ := idx_facts t
  show (cfg0.win 6).cut (grid0.coords t) ((dats m 0 c).after 6 t) = _
  rw [after0_6]
  funext y
  obtain ⟨r, cc, rfl⟩ : ∃ (r cc : Fin 2048), y = ix2 r cc := ⟨y 0, y 1, eq_ix2 (n0 := 2048) (n1 := 2048) y⟩
  show outsAt0 m c t.val t.isLt (ix2 r cc) = flatOutFn m c (((cfg0.win 6).blk t).view.emb (ix2 r cc))
  rw [last_inv m c t.val t.isLt h7 r cc]
  show outFlat (argX m c) (argA m c) (argQ m c) (argW m c) (argZ m c) (argB m c) (t.val / 16 * 2048 + r.val) (t.val / 8 % 2 * 2048 + cc.val)
    = outFlat (argX m c) (argA m c) (argQ m c) (argW m c) (argZ m c) (argB m c) (win0_6.index t (0 : Fin 2) * 2048 + 1 * r.val) (win0_6.index t (1 : Fin 2) * 2048 + 1 * cc.val)
  rw [e0, e1, Nat.one_mul, Nat.one_mul]

/-- An entry of the array is in point `t`'s block iff each coordinate is in the block's range on its axis. -/
theorem mem_blk (t : Fin cfg0.N) (i : S8192x4096.Idx) :
    i ∈ ((cfg0.win 6).blk t).view.set ↔ ∀ a : Fin 2, win0_6.index t a * S2048x2048.size a ≤ (i a).val
      ∧ (i a).val < win0_6.index t a * S2048x2048.size a + S2048x2048.size a := by
  show i ∈ ((View.whole main_v3).slice (win0_6.rect t)).set ↔ _
  rw [View.set_slice_whole, Rect.mem_set_unit]
  exact Iff.rfl

/-- Every entry of the array is in the block some write-back writes. -/
theorem cover (i : S8192x4096.Idx) :
    ∃ t : Fin cfg0.N, (cfg0.win 6).flush t = true ∧ i ∈ ((cfg0.win 6).blk t).view.set := by
  have h0 : (i 0).val < 8192 := (i 0).isLt
  have h1 : (i 1).val < 4096 := (i 1).isLt
  have hlt : (i 0).val / 2048 * 16 + (i 1).val / 2048 * 8 + 7 < cfg0.N := by rw [show cfg0.N = 64 from N_0]; omega
  refine ⟨⟨(i 0).val / 2048 * 16 + (i 1).val / 2048 * 8 + 7, hlt⟩, (flush0_6 _).mpr (by dsimp only; omega), ?_⟩
  rw [mem_blk]
  obtain ⟨-, -, -, -, -, -, -, -, -, -, -, e0, e1, -⟩ := idx_facts ⟨(i 0).val / 2048 * 16 + (i 1).val / 2048 * 8 + 7, hlt⟩
  dsimp only at e0 e1
  intro a
  match a with
  | ⟨0, _⟩ =>
    show win0_6.index _ (0 : Fin 2) * 2048 ≤ (i 0).val ∧ (i 0).val < win0_6.index _ (0 : Fin 2) * 2048 + 2048
    rw [e0]; omega
  | ⟨1, _⟩ =>
    show win0_6.index _ (1 : Fin 2) * 2048 ≤ (i 1).val ∧ (i 1).val < win0_6.index _ (1 : Fin 2) * 2048 + 2048
    rw [e1]; omega

/-- The region's result array after the run: the layer's output over flat rows. -/
theorem final_out (c : Dev nD) : (dats m 0 c).arrAt 6 cfg0.N = flatOut m c :=
  (dats m 0 c).arrAt_eq_of_cover 6 (flatOut m c) (flushed_eq m c) cover

/-- The program's result: the reshape of that array. -/
theorem result_eq (c : Dev nD) :
    Pipeline.afterTail₀ cfgs (dats m) 0 (V0 m) [hostOps1] c main_v4
      = shapeCast S4x2048x4096 (flatOutFn m c) shapeCasts_S8192x4096_S4x2048x4096 := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.tc.devRef main_v3)
      = flatOut m c from (Pipeline.withArrays_arr spec0 launch0.win.arr_inj c _ _ 6).trans (final_out m c)]
  rfl

/-- Read at `(b, s, o)` the reshape takes flat row `2048 b + s`: the specification's array. -/
theorem reshape_eq (c : Dev nD) :
    shapeCast S4x2048x4096 (flatOutFn m c) shapeCasts_S8192x4096_S4x2048x4096
      = out (argX m c) (argA m c) (argQ m c) (argW m c) (argZ m c) (argB m c) := by
  funext j
  obtain ⟨b, s, o, rfl⟩ : ∃ (b : Fin 4) (s : Fin 2048) (o : Fin 4096), j = ix3 b s o := ⟨j 0, j 1, j 2, eq_ix3 j⟩
  have hb := b.isLt
  have hs := s.isLt
  have ho := o.isLt
  refine (shapeCast_apply _ _ (ix3 b s o) (ix2 (co 8192 (by decide) (b.val * 2048 + s.val)) (co 4096 (by decide) o.val)) ?_).trans ?_
  · rw [Shape.rowMajor_val_two, Shape.rowMajor_val_three]
    show (b.val * 2048 + s.val) % 8192 * 4096 + o.val % 4096 = (b.val * 2048 + s.val) * 4096 + o.val
    omega
  · show outFlat (argX m c) (argA m c) (argQ m c) (argW m c) (argZ m c) (argB m c) ((b.val * 2048 + s.val) % 8192) (o.val % 4096)
      = outFlat (argX m c) (argA m c) (argQ m c) (argW m c) (argZ m c) (argB m c) (b.val * 2048 + s.val) o.val
    rw [Nat.mod_eq_of_lt (by omega : b.val * 2048 + s.val < 8192), Nat.mod_eq_of_lt ho]

/-- The kernel program's run, read: its result is the specification's array of the argument arrays, which end
    unchanged. -/
theorem run : θ_run defs (onTc (τ := τ) (main (F := Ideal))) ⟨m, fun _ => 0, ρ⟩ (fun r => ∀ c : Dev nD,
      r.2.mem ((c.tc : Thread nD τ).loc main_v4) = out (argX m c) (argA m c) (argQ m c) (argW m c) (argZ m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v4 (Pipeline.mem_restRefs_of main_v4 (by decide) (by decide))).trans
        ((result_eq m c).trans (reshape_eq m c)),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.QuantLinear.Final

end
-- ==== Proof.lean ====
/-
  A linear layer with 4-bit packed weights and per-token fake-quantised activations: the tiled kernel against the
  plain reference.

  Both programs compute, for a token `(b, s)` and an output feature `o`,

      out[b, s, o] = (∑ i < 4096, q(x[b, s, i], a[s]) · w[o, i]) + bias[o],

  with `q(x, a) = min 127 (max (-127) (round (x / a))) · a` (ties to even) and `w[o, i]` the nibble of column `i` in
  the packed word `Q[o, i / 2]`, less the zero point of group `i / 128`, times that group's scale
  (`Cert.QuantLinear.out`, Proof/Spec.lean).

  The reference computes it in one contraction over the 4096 columns (Proof/RefValue.lean, over the generated
  reading of its host operations).  The kernel walks a 4 × 2 × 8 grid: for each [2048, 2048] output block it runs
  over eight tiles of 512 columns, starting the block from zero, adding each tile's contraction into it, and adding
  the bias after the last tile.  A tile's contraction, element by element, is the specification's partial sum over
  that tile's columns (Proof/KTile.lean for the arithmetic of one grid point, Proof/KBlocks.lean for which array
  entries the point's blocks are); by induction over the points the block ends holding all eight tiles plus the
  bias (Proof/KPoint.lean), the eight blocks tile the result array, and the reshape after the region restores the
  [4, 2048, 4096] layout (Proof/KFinal.lean).  Eight partial sums of 512 terms against one sum of 4096 terms differ
  only in how the additions are grouped, and addition of extended reals is associative and commutative at the
  infinities too; float format changes are the identity on extended reals.  Nothing here needs an input to be
  finite, so the precondition is never opened.

  The frames of the two kernel programs are the generated ones; the reference's frame is its generated run with the
  result dropped; the ideal pass rewrote nothing, so `preserves` is `True`.
-/
import proofs.«430562_j68324339745160_1_alg».proof.Defs
import proofs.«430562_j68324339745160_1_alg».proof.Proof.Gen.Kernel
import proofs.«430562_j68324339745160_1_alg».proof.Proof.Gen.Kernel.Skeleton
import proofs.«430562_j68324339745160_1_alg».proof.Proof.Gen.Kernel.Launch
import proofs.«430562_j68324339745160_1_alg».proof.Proof.Gen.Kernel.Points
import proofs.«430562_j68324339745160_1_alg».proof.Proof.Gen.Kernel.Frame
import proofs.«430562_j68324339745160_1_alg».proof.Proof.Gen.KernelIdeal
import proofs.«430562_j68324339745160_1_alg».proof.Proof.Gen.KernelIdeal.Skeleton
import proofs.«430562_j68324339745160_1_alg».proof.Proof.Gen.KernelIdeal.Launch
import proofs.«430562_j68324339745160_1_alg».proof.Proof.Gen.KernelIdeal.Points
import proofs.«430562_j68324339745160_1_alg».proof.Proof.Gen.KernelIdeal.Frame
import proofs.«430562_j68324339745160_1_alg».proof.Proof.Gen.ReferenceIdeal
import proofs.«430562_j68324339745160_1_alg».proof.Proof.Gen.ReferenceIdeal.Run
import proofs.«430562_j68324339745160_1_alg».proof.Proof.Gen.ReferenceIdeal.Read
import proofs.«430562_j68324339745160_1_alg».proof.Proof.Gen.Pre_finite_inputs
import proofs.«430562_j68324339745160_1_alg».proof.Proof.RefValue
import proofs.«430562_j68324339745160_1_alg».proof.Proof.KFinal
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer's output of the argument arrays, and the argument arrays agree. -/
theorem algebraic : Cert.algebraic_KernelIdeal_ReferenceIdeal := by
  intro m ρ m' ρ' _ hagree
  refine ⟨fun c => Cert.QuantLinear.out (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.QuantLinear.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.QuantLinear.Ref.ref_eq_out,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
